-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x43808 : Shape := ⟨2, ![256, 43808]⟩
abbrev S49152x64 : Shape := ⟨2, ![49152, 64]⟩
abbrev S1x64 : Shape := ⟨2, ![1, 64]⟩
abbrev S64x32 : Shape := ⟨2, ![64, 32]⟩
abbrev S1x32 : Shape := ⟨2, ![1, 32]⟩
abbrev S32x6 : Shape := ⟨2, ![32, 6]⟩
abbrev S1x6 : Shape := ⟨2, ![1, 6]⟩
abbrev S_ : Shape := ⟨0, ![]⟩

class Facts : Prop where
  bcast_S_S256x43808 : S_.BroadcastsInDim S256x43808 (![] : Fin 0 → Fin S256x43808.rank)
  reducesTo_S256x43808_S_d0_1 : S256x43808.ReducesTo [0, 1] S_
  h_S_ : 0 < S_.numel
  bcast_S_S49152x64 : S_.BroadcastsInDim S49152x64 (![] : Fin 0 → Fin S49152x64.rank)
  reducesTo_S49152x64_S_d0_1 : S49152x64.ReducesTo [0, 1] S_
  bcast_S_S1x64 : S_.BroadcastsInDim S1x64 (![] : Fin 0 → Fin S1x64.rank)
  reducesTo_S1x64_S_d0_1 : S1x64.ReducesTo [0, 1] S_
  bcast_S_S64x32 : S_.BroadcastsInDim S64x32 (![] : Fin 0 → Fin S64x32.rank)
  reducesTo_S64x32_S_d0_1 : S64x32.ReducesTo [0, 1] S_
  bcast_S_S1x32 : S_.BroadcastsInDim S1x32 (![] : Fin 0 → Fin S1x32.rank)
  reducesTo_S1x32_S_d0_1 : S1x32.ReducesTo [0, 1] S_
  bcast_S_S32x6 : S_.BroadcastsInDim S32x6 (![] : Fin 0 → Fin S32x6.rank)
  reducesTo_S32x6_S_d0_1 : S32x6.ReducesTo [0, 1] S_
  bcast_S_S1x6 : S_.BroadcastsInDim S1x6 (![] : Fin 0 → Fin S1x6.rank)
  reducesTo_S1x6_S_d0_1 : S1x6.ReducesTo [0, 1] S_

variable [Facts]

def fn_part1 {F : FTy → Type} [FloatOps F] (main_arg4 : FVec F S1x32 .f32) (main_arg5 : FVec F S32x6 .f32) (main_arg6 : FVec F S1x6 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S1x32 .f32 := Host.absf main_arg4
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S32x6 .f32 := Host.absf main_arg5
  let main_cst_8 : FVec F S_ .f32 := constant S_ .f32 0x7F800000#32
  let main_v25 : FVec F S32x6 .f32 := broadcastInDim S32x6 ![] bcast_S_S32x6 main_cst_8
  let main_v26 : IVec S32x6 1 := cmpf .olt main_v24 main_v25
  let main_c_9 : IVec S_ 1 := constantI S_ 1 1#1
  let main_v27 : IVec S_ 1 := (fun x v => Host.reduce IntOp.andi x v reducesTo_S32x6_S_d0_1 h_S_) main_v26 main_c_9
  let main_v28 : IVec S_ 1 := andi main_v23 main_v27
  let main_v29 : FVec F S1x6 .f32 := Host.absf main_arg6
  let main_cst_10 : FVec F S_ .f32 := constant S_ .f32 0x7F800000#32
  let main_v30 : FVec F S1x6 .f32 := broadcastInDim S1x6 ![] bcast_S_S1x6 main_cst_10
  let main_v31 : IVec S1x6 1 := cmpf .olt main_v29 main_v30
  let main_c_11 : IVec S_ 1 := constantI S_ 1 1#1
  let main_v32 : IVec S_ 1 := (fun x v => Host.reduce IntOp.andi x v reducesTo_S1x6_S_d0_1 h_S_) main_v31 main_c_11
  let main_v33 : IVec S_ 1 := andi main_v28 main_v32
  main_v33

def fn {F : FTy → Type} [FloatOps F] (main_arg0 : FVec F S256x43808 .f32) (main_arg1 : FVec F S49152x64 .f32) (main_arg2 : FVec F S1x64 .f32) (main_arg3 : FVec F S64x32 .f32) (main_arg4 : FVec F S1x32 .f32) (main_arg5 : FVec F S32x6 .f32) (main_arg6 : FVec F S1x6 .f32) : IVec S_ 1 :=
  let main_v0 : FVec F S256x43808 .f32 := Host.absf main_arg0
  let main_cst : FVec F S_ .f32 := constant S_ .f32 0x7F800000#32
  let main_v1 : FVec F S256x43808 .f32 := broadcastInDim S256x43808 ![] bcast_S_S256x43808 main_cst
  let main_v2 : IVec S256x43808 1 := cmpf .olt main_v0 main_v1
  let main_c : IVec S_ 1 := constantI S_ 1 1#1
  let main_v3 : IVec S_ 1 := (fun x v => Host.reduce IntOp.andi x v reducesTo_S256x43808_S_d0_1 h_S_) main_v2 main_c
  let main_v4 : FVec F S49152x64 .f32 := Host.absf main_arg1
  let main_cst_0 : FVec F S_ .f32 := constant S_ .f32 0x7F800000#32
  let main_v5 : FVec F S49152x64 .f32 := broadcastInDim S49152x64 ![] bcast_S_S49152x64 main_cst_0
  let main_v6 : IVec S49152x64 1 := cmpf .olt main_v4 main_v5
  let main_c_1 : IVec S_ 1 := constantI S_ 1 1#1
  let main_v7 : IVec S_ 1 := (fun x v => Host.reduce IntOp.andi x v reducesTo_S49152x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_v13 main_v16
-- ==== Kernel.lean ====
abbrev S256x43808 : Shape := ⟨2, ![256, 43808]⟩
abbrev S49152x64 : Shape := ⟨2, ![49152, 64]⟩
abbrev S1x64 : Shape := ⟨2, ![1, 64]⟩
abbrev S64x32 : Shape := ⟨2, ![64, 32]⟩
abbrev S1x32 : Shape := ⟨2, ![1, 32]⟩
abbrev S32x6 : Shape := ⟨2, ![32, 6]⟩
abbrev S1x6 : Shape := ⟨2, ![1, 6]⟩
abbrev S256x6 : Shape := ⟨2, ![256, 6]⟩
abbrev S128x4096 : Shape := ⟨2, ![128, 4096]⟩
abbrev S4096x64 : Shape := ⟨2, ![4096, 64]⟩
abbrev S128x6 : Shape := ⟨2, ![128, 6]⟩
abbrev S128x64 : Shape := ⟨2, ![128, 64]⟩
abbrev S128x32 : Shape := ⟨2, ![128, 32]⟩

abbrev nBuf : Space → Nat
  | .hbm => 8
  | .vmem => 12
  | .smem => 0
  | _ => 0

abbrev bufTy : (tb : Table) → Fin (tcTables nBuf tb) → BufTy
  | .hbm, ⟨0, _⟩ => ⟨S256x43808, .f32⟩
  | .hbm, ⟨1, _⟩ => ⟨S49152x64, .f32⟩
  | .hbm, ⟨2, _⟩ => ⟨S1x64, .f32⟩
  | .hbm, ⟨3, _⟩ => ⟨S64x32, .f32⟩
  | .hbm, ⟨4, _⟩ => ⟨S1x32, .f32⟩
  | .hbm, ⟨5, _⟩ => ⟨S32x6, .f32⟩
  | .hbm, ⟨6, _⟩ => ⟨S1x6, .f32⟩
  | .hbm, ⟨7, _⟩ => ⟨S256x6, .f32⟩
  | .local _ .vmem, ⟨0, _⟩ => ⟨S128x4096, .f32⟩
  | .local _ .vmem, ⟨1, _⟩ => ⟨S128x4096, .f32⟩
  | .local _ .vmem, ⟨2, _⟩ => ⟨S4096x64, .f32⟩
  | .local _ .vmem, ⟨3, _⟩ => ⟨S4096x64, .f32⟩
  | .local _ .vmem, ⟨4, _⟩ => ⟨S1x64, .f32⟩
  | .local _ .vmem, ⟨5, _⟩ => ⟨S64x32, .f32⟩
  | .local _ .vmem, ⟨6, _⟩ => ⟨S1x32, .f32⟩
  | .local _ .vmem, ⟨7, _⟩ => ⟨S32x6, .f32⟩
  | .local _ .vmem, ⟨8, _⟩ => ⟨S1x6, .f32⟩
  | .local _ .vmem, ⟨9, _⟩ => ⟨S128x6, .f32⟩
  | .local _ .vmem, ⟨10, _⟩ => ⟨S128x6, .f32⟩
  | .local _ .vmem, ⟨11, _⟩ => ⟨S128x64, .f32⟩
  | _, _ => ⟨S256x43808, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 11], ![false, false]⟩

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x6 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x4096_S128x4096_0_0 : ∀ a, (![0, 0] : Fin 2 → Nat) a + S128x4096.size a ≤ S128x4096.size a
  h_S128x4096 : 0 < S128x4096.numel
  inb_S4096x64_S4096x64_0_0 : ∀ a, (![0, 0] : Fin 2 → Nat) a + S4096x64.size a ≤ S4096x64.size a
  h_S4096x64 : 0 < S4096x64.numel
  iota_S128x4096_d1_w32 : S128x4096.Iotas .tc 32 [1]
  inb_S1x64_S1x64_0_0 : ∀ a, (![0, 0] : Fin 2 → Nat) a + S1x64.size a ≤ S1x64.size a
  h_S1x64 : 0 < S1x64.numel
  broadcasts_S1x64_S128x64 : S1x64.Broadcasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  broadcasts_S1x32_S128x32 : S1x32.Broadcasts S128x32
  inb_S32x6_S32x6_0_0 : ∀ a, (![0, 0] : Fin 2 → Nat) a + S32x6.size a ≤ S32x6.size a
  h_S32x6 : 0 < S32x6.numel
  inb_S1x6_S1x6_0_0 : ∀ a, (![0, 0] : Fin 2 → Nat) a + S1x6.size a ≤ S1x6.size a
  h_S1x6 : 0 < S1x6.numel
  broadcasts_S1x6_S128x6 : S1x6.Broadcasts S128x6
  inb_S128x6_S128x6_0_0 : ∀ a, (![0, 0] : Fin 2 → Nat) a + S128x6.size a ≤ S128x6.size a
  h_S128x6 : 0 < S128x6.numel
  dot_S128x4096_S4096x64_S128x64_1_0_0_1_n_n_wf : DotDims.WF S128x4096 S4096x64 S128x64 [1] [0] [0] [1] [] []
  dot_S128x64_S64x32_S128x32_1_0_0_1_n_n_wf : DotDims.WF S128x64 S64x32 S128x32 [1] [0] [0] [1] [] []
  dot_S128x32_S32x6_S128x6_1_0_0_1_n_n_wf : DotDims.WF S128x32 S32x6 S128x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S128x4096.size a < S256x43808.size a
  hwx0_0 : ∀ i : grid0.Coords, EltTy.bits .f32 = 32 ∨ (Rect.unit (s := S256x43808) (fun a => cc0_transform_0 i a * S128x4096.size a) (fun a => (Pipeline.Clip.of (cc0_transform_0 i a) (S128x4096.size a) (S256x43808.size a)).extent (S128x4096.size a)) fun a => Pipeline.Clip.inb (Pipeline.Clip.ok_of (hstart0_0 i a))).WholeWords (EltTy.packing .f32)
  hwxs0_0 : ∀ i : grid0.Coords, EltTy.bits .f32 = 32 ∨ (Rect.unit (s := S128x4096) (fun _ => 0) (fun a => (Pipeline.Clip.of (cc0_transform_0 i a) (S128x4096.size a) (S256x43808.size a)).extent (S128x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S49152x64.size a
  hwx0_1 : ∀ i : grid0.Coords, EltTy.bits .f32 = 32 ∨ (Rect.block (s := S49152x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x6.size a ≤ S32x6.size a
  hwx0_5 : ∀ i : grid0.Coords, EltTy.bits .f32 = 32 ∨ (Rect.block (s := S32x6) S32x6.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x6.size a ≤ S1x6.size a
  hwx0_6 : ∀ i : grid0.Coords, EltTy.bits .f32 = 32 ∨ (Rect.block (s := S1x6) S1x6.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x6.size a ≤ S256x6.size a
  hwx0_7 : ∀ i : grid0.Coords, EltTy.bits .f32 = 32 ∨ (Rect.block (s := S256x6) S128x6.size (cc0_transform_7 i) (hinb0_7 i)).WholeWords (EltTy.packing .f32)

variable [Facts₀]

def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x6_S128x6_1_0_0_1_n_n : DotDims S128x32 S32x6 S128x6 where
  lhsContracting := [1]
  rhsContracting := [0]
  lhsNonContracting := [0]
  rhsNonContracting := [1]
  lhsBatch := []
  rhsBatch := []
  wf := dot_S128x32_S32x6_S128x6_1_0_0_1_n_n_wf

abbrev win0_0 : Pipeline.Window sig grid0 :=
  Pipeline.Window.ofSpecClip (Memref.whole main_arg0) S128x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S128x6.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S256x43808 : Shape := ⟨2, ![256, 43808]⟩
abbrev S49152x64 : Shape := ⟨2, ![49152, 64]⟩
abbrev S1x64 : Shape := ⟨2, ![1, 64]⟩
abbrev S64x32 : Shape := ⟨2, ![64, 32]⟩
abbrev S1x32 : Shape := ⟨2, ![1, 32]⟩
abbrev S32x6 : Shape := ⟨2, ![32, 6]⟩
abbrev S1x6 : Shape := ⟨2, ![1, 6]⟩
abbrev S_ : Shape := ⟨0, ![]⟩
abbrev S256x49152 : Shape := ⟨2, ![256, 49152]⟩
abbrev S2x256x64 : Shape := ⟨3, ![2, 256, 64]⟩
abbrev S256x6 : Shape := ⟨2, ![256, 6]⟩
abbrev S256x8192 : Shape := ⟨2, ![256, 8192]⟩
abbrev S8192x64 : Shape := ⟨2, ![8192, 64]⟩
abbrev S1x256x64 : Shape := ⟨3, ![1, 256, 64]⟩
abbrev S256x64 : Shape := ⟨2, ![256, 64]⟩
abbrev S256x32 : Shape := ⟨2, ![256, 32]⟩

abbrev nBuf : Space → Nat
  | .hbm => 12
  | .vmem => 13
  | .smem => 0
  | _ => 0

abbrev bufTy : (tb : Table) → Fin (tcTables nBuf tb) → BufTy
  | .hbm, ⟨0, _⟩ => ⟨S256x43808, .f32⟩
  | .hbm, ⟨1, _⟩ => ⟨S49152x64, .f32⟩
  | .hbm, ⟨2, _⟩ => ⟨S1x64, .f32⟩
  | .hbm, ⟨3, _⟩ => ⟨S64x32, .f32⟩
  | .hbm, ⟨4, _⟩ => ⟨S1x32, .f32⟩
  | .hbm, ⟨5, _⟩ => ⟨S32x6, .f32⟩
  | .hbm, ⟨6, _⟩ => ⟨S1x6, .f32⟩
  | .hbm, ⟨7, _⟩ => ⟨S_, .i32⟩
  | .hbm, ⟨8, _⟩ => ⟨S_, .f32⟩
  | .hbm, ⟨9, _⟩ => ⟨S256x49152, .f32⟩
  | .hbm, ⟨10, _⟩ => ⟨S2x256x64, .f32⟩
  | .hbm, ⟨11, _⟩ => ⟨S256x6, .f32⟩
  | .local _ .vmem, ⟨0, _⟩ => ⟨S256x8192, .f32⟩
  | .local _ .vmem, ⟨1, _⟩ => ⟨S256x8192, .f32⟩
  | .local _ .vmem, ⟨2, _⟩ => ⟨S8192x64, .f32⟩
  | .local _ .vmem, ⟨3, _⟩ => ⟨S8192x64, .f32⟩
  | .local _ .vmem, ⟨4, _⟩ => ⟨S1x256x64, .f32⟩
  | .local _ .vmem, ⟨5, _⟩ => ⟨S1x256x64, .f32⟩
  | .local _ .vmem, ⟨6, _⟩ => ⟨S2x256x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S32x6, .f32⟩
  | .local _ .vmem, ⟨11, _⟩ => ⟨S1x6, .f32⟩
  | .local _ .vmem, ⟨12, _⟩ => ⟨S256x6, .f32⟩
  | _, _ => ⟨S256x43808, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x256x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x6 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x6 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x6 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  pads_S256x43808_S256x49152_000_053440 : S256x43808.Pads (![0, 0] : Fin 2 → Nat) ![0, 5344] ![0, 0] S256x49152
  h_S_ : 0 < S_.numel
  inb_S1x256x64_S1x256x64_0_0_0 : ∀ a, (![0, 0, 0] : Fin 3 → Nat) a + S1x256x64.size a ≤ S1x256x64.size a
  h_S1x256x64 : 0 < S1x256x64.numel
  shapeCasts_S1x256x64_S1x256x64 : S1x256x64.ShapeCasts S1x256x64
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x64_S8192x64_0_0 : ∀ a, (![0, 0] : Fin 2 → Nat) a + S8192x64.size a ≤ S8192x64.size a
  h_S8192x64 : 0 < S8192x64.numel
  shapeCasts_S256x64_S1x256x64 : S256x64.ShapeCasts S1x256x64
  inb_S2x256x64_S2x256x64_0_0_0 : ∀ a, (![0, 0, 0] : Fin 3 → Nat) a + S2x256x64.size a ≤ S2x256x64.size a
  h_S2x256x64 : 0 < S2x256x64.numel
  shapeCasts_S2x256x64_S2x256x64 : S2x256x64.ShapeCasts S2x256x64
  reduces_S2x256x64_S256x64 : S2x256x64.Reduces [0] S256x64
  inb_S1x64_S1x64_0_0 : ∀ a, (![0, 0] : Fin 2 → Nat) a + S1x64.size a ≤ S1x64.size a
  h_S1x64 : 0 < S1x64.numel
  broadcasts_S1x64_S256x64 : S1x64.Broadcasts S256x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  broadcasts_S1x32_S256x32 : S1x32.Broadcasts S256x32
  inb_S32x6_S32x6_0_0 : ∀ a, (![0, 0] : Fin 2 → Nat) a + S32x6.size a ≤ S32x6.size a
  h_S32x6 : 0 < S32x6.numel
  inb_S1x6_S1x6_0_0 : ∀ a, (![0, 0] : Fin 2 → Nat) a + S1x6.size a ≤ S1x6.size a
  h_S1x6 : 0 < S1x6.numel
  broadcasts_S1x6_S256x6 : S1x6.Broadcasts S256x6
  inb_S256x6_S256x6_0_0 : ∀ a, (![0, 0] : Fin 2 → Nat) a + S256x6.size a ≤ S256x6.size a
  h_S256x6 : 0 < S256x6.numel
  dot_S256x8192_S8192x64_S256x64_1_0_0_1_n_n_wf : DotDims.WF S256x8192 S8192x64 S256x64 [1] [0] [0] [1] [] []
  dot_S256x64_S64x32_S256x32_1_0_0_1_n_n_wf : DotDims.WF S256x64 S64x32 S256x32 [1] [0] [0] [1] [] []
  dot_S256x32_S32x6_S256x6_1_0_0_1_n_n_wf : DotDims.WF S256x32 S32x6 S256x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x49152.size a
  hwx0_0 : ∀ i : grid0.Coords, EltTy.bits .f32 = 32 ∨ (Rect.block (s := S256x49152) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S49152x64.size a
  hwx0_1 : ∀ i : grid0.Coords, EltTy.bits .f32 = 32 ∨ (Rect.block (s := S49152x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S2x256x64.size a
  hwx0_2 : ∀ i : grid0.Coords, EltTy.bits .f32 = 32 ∨ (Rect.block (s := S2x256x64) S1x256x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x256x64.size a ≤ S2x256x64.size a
  hwx1_0 : ∀ i : grid1.Coords, EltTy.bits .f32 = 32 ∨ (Rect.block (s := S2x256x64) S2x256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x6.size a ≤ S32x6.size a
  hwx1_4 : ∀ i : grid1.Coords, EltTy.bits .f32 = 32 ∨ (Rect.block (s := S32x6) S32x6.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x6.size a ≤ S1x6.size a
  hwx1_5 : ∀ i : grid1.Coords, EltTy.bits .f32 = 32 ∨ (Rect.block (s := S1x6) S1x6.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x6.size a ≤ S256x6.size a
  hwx1_6 : ∀ i : grid1.Coords, EltTy.bits .f32 = 32 ∨ (Rect.block (s := S256x6) S256x6.size (cc1_transform_6 i) (hinb1_6 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x6_S256x6_1_0_0_1_n_n : DotDims S256x32 S32x6 S256x6 where
  lhsContracting := [1]
  rhsContracting := [0]
  lhsNonContracting := [0]
  rhsNonContracting := [1]
  lhsBatch := []
  rhsBatch := []
  wf := dot_S256x32_S32x6_S256x6_1_0_0_1_n_n_wf

abbrev win0_0 : Pipeline.Window sig grid0 :=
  Pipeline.Window.ofSpec (Memref.whole main_call0_v0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v1) S2x256x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x6.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S1x6.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S256x6.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.KDefs.lean ====
/-
  What the fused kernel's staging buffers and its accumulator hold, point by point.

  The grid is 2 × 11: the first coordinate picks a block of 128 rows, the second a tile of 4096 columns of `x` (and
  the matching 4096 rows of `w1`). In linear order point `t` is row block `t / 11`, tile `t % 11`. The body has
  three branches on the tile number: tile 0 zeroes the accumulator; tiles 0‥9 add the tile's product into it;
  tile 10 masks the tile's columns past 2848 (the array has 43808 = 10 · 4096 + 2848 columns, so the last tile's
  buffer is only partly filled by the fetch and its tail holds words nothing names), adds the masked product to the
  accumulator's value WITHOUT storing it back, and runs the two small layers into the output block. So after point
  `t` the accumulator holds the sum of the products of the row block's tiles 0‥min(t % 11, 9) (`accAt`), and the
  output's staging buffer at a tile-10 point holds the head of the full contraction (`outAt`).
-/
import proofs.«100141_g2000406171838923_pallasbulk_1035_2_alg».proof.Proof.Gen.Kernel.Frame
import proofs.«100141_g2000406171838923_pallasbulk_1035_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three branch conditions over the grid -/

/-- "The tile number is 0", as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 11 = 0 :=
  (by decide +kernel : ∀ t : Fin grid0.N, cond0_0 (grid0.coords t) ↔ t.val % 11 = 0)

/-- "The tile number is below 10". -/
abbrev cond0_1 (i : grid0.Coords) : Prop := (Scalar.cmpi .ne (Scalar.extui (Scalar.cmpi .slt (BitVec.ofNat 32 (i 1).val) 10#32)) 0#32) = 1#1
theorem hcond0_1 : ∀ t : Fin cfg0.N, cond0_1 (grid0.coords t) ↔ ¬t.val % 11 = 10 :=
  (by decide +kernel : ∀ t : Fin grid0.N, cond0_1 (grid0.coords t) ↔ ¬t.val % 11 = 10)

/-- "The tile number is 10". -/
abbrev cond0_2 (i : grid0.Coords) : Prop := k0_cond3 i = 1#1
theorem hcond0_2 : ∀ t : Fin cfg0.N, cond0_2 (grid0.coords t) ↔ t.val % 11 = 10 :=
  (by decide +kernel : ∀ t : Fin grid0.N, cond0_2 (grid0.coords t) ↔ t.val % 11 = 10)

/-! ## The blocks -/

/-- The part of `x`'s block at point `t` that lies inside the array (all 4096 columns at tiles 0‥9, the first 2848
    at tile 10), as the fetch reads it. -/
def xraw (c : Dev nD) (t : Fin cfg0.N) : (win0_0.xblock (grid0.coords t)).Idx → Elt F .f32 :=
  (win0_0.blk t).view.read (Elt F) (V m c main_arg0)

/-- The same filled out to the whole 128 × 4096 buffer with zeros past the array's last column. -/
def xfull (c : Dev nD) (t : Fin cfg0.N) : Vec F S128x4096 .f32 :=
  win0_0.fill (grid0.coords t) (fun _ => Scalar.ofBits .f32 0x00000000#32) (xraw m c t)

/-- The accumulator after point `n`: at a tile 0 the tile's product added to the zero block; at tiles 1‥9 the
    tile's product added to what the point before left; at tile 10 what the point before left. -/
def accAt (c : Dev nD) : (n : ℕ) → n < cfg0.N → Vec F S128x64 .f32
  | 0, h => k0_pay2 (k0_pay1 (F := F)) (xfull m c ⟨0, h⟩) (iblk m c 1 ⟨0, h⟩)
  | n + 1, h =>
    if (n + 1) % 11 = 0 then k0_pay2 (k0_pay1 (F := F)) (xfull m c ⟨n + 1, h⟩) (iblk m c 1 ⟨n + 1, h⟩)
    else if (n + 1) % 11 = 10 then accAt c n (Nat.lt_of_succ_lt h)
    else k0_pay2 (accAt c n (Nat.lt_of_succ_lt h)) (xfull m c ⟨n + 1, h⟩) (iblk m c 1 ⟨n + 1, h⟩)

/-- At a tile 0: the tile's product over the zero block. -/
theorem accAt_first (c : Dev nD) (t : Fin cfg0.N) (h : t.val % 11 = 0) :
    accAt m c t.val t.isLt = k0_pay2 (k0_pay1 (F := F)) (xfull m c t) (iblk m c 1 t) := by
  obtain ⟨n, hn⟩ := t
  cases n with
  | zero => rfl
  | succ n => exact if_pos h

/-- At tiles 1‥9: the tile's product over what the point before left. -/
theorem accAt_mid (c : Dev nD) (t : Fin cfg0.N) (h0 : ¬t.val % 11 = 0) (h10 : ¬t.val % 11 = 10) :
    accAt m c t.val t.isLt
      = k0_pay2 (accAt m c (t.val - 1) (Nat.lt_of_le_of_lt (Nat.sub_le _ _) t.isLt)) (xfull m c t) (iblk m c 1 t) := by
  obtain ⟨n, hn⟩ := t
  cases n with
  | zero => exact absurd (Nat.zero_mod _) h0
  | succ n => exact (if_neg h0).trans (if_neg h10)

/-- At tile 10: what the point before left. -/
theorem accAt_last (c : Dev nD) (t : Fin cfg0.N) (h10 : t.val % 11 = 10) :
    accAt m c t.val t.isLt = accAt m c (t.val - 1) (Nat.lt_of_le_of_lt (Nat.sub_le _ _) t.isLt) := by
  obtain ⟨n, hn⟩ := t
  cases n with
  | zero => exact absurd h10 (by dsimp only; omega)
  | succ n => exact (if_neg (by dsimp only at h10 ⊢; omega)).trans (if_pos h10)

/-- What the body leaves in the output's staging buffer at point `t` (consulted at tile-10 points only: elsewhere
    the output's window is idle and not written back): the head of the accumulator the point before left plus the
    masked last tile's product. -/
def outAt (c : Dev nD) (t : Fin cfg0.N) : Vec F S128x6 .f32 :=
  k0_pay3 (xfull m c t) (accAt m c (t.val - 1) (Nat.lt_of_le_of_lt (Nat.sub_le _ _) t.isLt)) (iblk m c 1 t)
    (iblk m c 2 t) (iblk m c 3 t) (iblk m c 4 t) (iblk m c 5 t) (iblk m c 6 t)

/-! ## The accumulator as a memref, and the region's invariant -/

/-- The accumulator: a whole scoped buffer of the kernel's own, passed beside the windows. -/
abbrev scM0_0 : Memref sig .tc .vmem S128x64 .f32 := Memref.whole cc0_scratch0

/-- The class's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The region's invariant before position `n`: before the first point the accumulator holds anything; afterwards
    what the point before left (`accAt`); the generator register at some state throughout. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The pipeline's proof data -/

/-- The arrays as the region finds them; after the body at point `t`: `x`'s buffer at its block filled out with
    zeros (only its part inside the array is ever stated: the window is loose), every other input's at its block,
    the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

end Cert.Kernel.Hand

end
-- ==== Proof.KMask.lean ====
/-
  The tail's payload does not read the columns of `x`'s buffer past the array's end.

  At a tile-10 point the fetch fills the first 2848 columns of the 128 × 4096 buffer and leaves the rest at words nothing
  names. The tail selects, column by column, the buffer's entry where the column number is below 2848 and zero
  elsewhere, before anything else reads the buffer; so two buffers that agree on the filled part give the same payload.
-/
import proofs.«100141_g2000406171838923_pallasbulk_1035_2_alg».proof.Proof.KDefs
import Idealize.ShloMosaic.Lib.StableHlo.Predicate
import Idealize.ShloMosaic.Lib.Pipeline.Value

set_option maxRecDepth 16384

noncomputable section

namespace Cert.Kernel.Hand

open Cert.Kernel Cert.Kernel.Gen
open Idealize.ShloMosaic Idealize.ShloMosaic.TcCoe
open Idealize.ShloMosaic.Pipeline (Dat Cfg Window)

variable {F : FTy → Type} [FloatOps F]

/-- At a tile-10 point the fetch moves all 128 rows and the first 2848 columns of the block. -/
theorem xsize_tail : ∀ t : Fin cfg0.N, t.val % 11 = 10 →
    win0_0.xsize (grid0.coords t) 0 = 128 ∧ win0_0.xsize (grid0.coords t) 1 = 2848 :=
  (by decide +kernel : ∀ t : Fin grid0.N, t.val % 11 = 10 →
    win0_0.xsize (grid0.coords t) 0 = 128 ∧ win0_0.xsize (grid0.coords t) 1 = 2848)

/-- So at such a point an index of the block is moved exactly when its column is below 2848. -/
theorem moved_tail (t : Fin cfg0.N) (h : t.val % 11 = 10) (j : S128x4096.Idx) :
    win0_0.moved (grid0.coords t) j = true ↔ (j 1).val < 2848 := by
  rw [Window.moved_iff]
  obtain ⟨h0, h1⟩ := xsize_tail t h
  constructor
  · intro H
    have := H 1
    rw [h1] at this
    exact this
  · intro H a
    fin_cases a
    · show (j 0).val < win0_0.xsize (grid0.coords t) 0
      rw [h0]
      exact (j 0).isLt
    · show (j 1).val < win0_0.xsize (grid0.coords t) 1
      rw [h1]
      exact H

/-- The mask bit at an index is set exactly when the column is below 2848: the column number is below 4096, so the
    signed 32-bit comparison is the comparison of the natural numbers. -/
theorem mask_iff (j : S128x4096.Idx) :
    cmpi .slt (iota .tc S128x4096 32 [1] iota_S128x4096_d1_w32) (broadcast S128x4096 2848#32) j = 1#1
      ↔ (j 1).val < 2848 := by
  have hj : (j 1).val < 4096 := (j 1).isLt
  show IntOp.cmpi .slt (iota .tc S128x4096 32 [1] iota_S128x4096_d1_w32 j) 2848#32 = 1#1 ↔ _
  rw [iota_single_apply, StableHlo.Predicate.slt_iff_toNat (by rw [BitVec.toNat_ofNat]; omega) (by decide)]
  rw [BitVec.toNat_ofNat, Nat.mod_eq_of_lt (by omega)]
  rfl

/-- At a tile-10 point the head's payload of `x`'s buffer filled with `d` past the array's end is its payload of the
    buffer filled with `d'` there. -/
theorem pay3_mask (t : Fin cfg0.N) (h : t.val % 11 = 10) (d d' : S128x4096.Idx → Elt F .f32)
    (g : (win0_0.xblock (grid0.coords t)).Idx → Elt F .f32)
    (xs : Vec F S128x64 .f32) (x1 : Vec F S4096x64 .f32) (x2 : Vec F S1x64 .f32) (x3 : Vec F S64x32 .f32) (x4 : Vec F S1x32 .f32)
    (x5 : Vec F S32x6 .f32) (x6 : Vec F S1x6 .f32) :
    k0_pay3 (win0_0.fill (grid0.coords t) d g) xs x1 x2 x3 x4 x5 x6
      = k0_pay3 (win0_0.fill (grid0.coords t) d' g) xs x1 x2 x3 x4 x5 x6 := by
  -- the masked buffers are equal: below column 2848 both read `g`, from there on both read the zero
  have hsel : ∀ z : Vec F S128x4096 .f32,
      select (cmpi .slt (iota .tc S128x4096 32 [1] iota_S128x4096_d1_w32) (broadcast S128x4096 2848#32))
          (win0_0.fill (grid0.coords t) d g) z
        = select (cmpi .slt (iota .tc S128x4096 32 [1] iota_S128x4096_d1_w32) (broadcast S128x4096 2848#32))
          (win0_0.fill (grid0.coords t) d' g) z := by
    intro z
    funext j
    show Scalar.select _ (win0_0.fill (grid0.coords t) d g j) (z j)
      = Scalar.select _ (win0_0.fill (grid0.coords t) d' g j) (z j)
    by_cases hj : (j 1).val < 2848
    · have hm := (moved_tail t h j).mpr hj
      unfold Window.fill
      rw [dif_pos hm, dif_pos hm]
    · have hM : ¬ cmpi .slt (iota .tc S128x4096 32 [1] iota_S128x4096_d1_w32) (broadcast S128x4096 2848#32) j = 1 :=
        fun e => hj ((mask_iff j).mp e)
      unfold Scalar.select
      rw [if_neg hM, if_neg hM]
  -- and the payload reads the buffer through that mask only
  unfold k0_pay3
  dsimp only
  rw [hsel]

end Cert.Kernel.Hand

end
-- ==== Proof.KFrame.lean ====
/-
  The fused kernel's frame: every weakly fair execution of @main terminates without a fault, the arguments unchanged, and
  the arrays end at what the proof data of KDefs compute.

  The body is run once per branch pattern (tile 0; tiles 1‥9; tile 10) on any whole staging memrefs; what each run
  leaves in the accumulator and in the output's buffer is read back as the payloads KDefs names (`accAt`, `outAt`).
  `x`'s window is clipped at the last tile: its buffer there holds the 2848 columns inside the array and, past them,
  words nothing names; the body masks exactly those columns, so what it computes does not depend on them (`pay3_mask`).
-/
import proofs.«100141_g2000406171838923_pallasbulk_1035_2_alg».proof.Proof.KDefs
import proofs.«100141_g2000406171838923_pallasbulk_1035_2_alg».proof.Proof.KMask
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x6 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x6 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x6 .f32 := win0_7.stage (cfg0.slots t 7)
abbrev hs0_7 (t : Fin cfg0.N) : (ms0_7 t).IsWhole := hstage0_7 ((cfg0.slots t 7).cast nbuf0_7)

/-- One view through which the output buffer's contents are stated (the choice does not matter once the pieces cover). -/
abbrev VO0_7 : View sig .tc .vmem S128x6 .f32 := (Memref.whole cc0_stg7_0 : Memref sig .tc .vmem S128x6 .f32).view
/-- The accumulator as a view. -/
abbrev VS0_0 : View sig .tc .vmem S128x64 .f32 := scM0_0.view

theorem hz2 : (![0, 0] : Fin 2 → Nat) = fun _ => 0 := funext fun a => by fin_cases a <;> rfl

/-! ## The body, branch pattern by branch pattern -/

set_option maxHeartbeats 1000000 in
/-- TILE 0 (both the reset and the accumulation taken): the pieces the body's two stores leave in the accumulator, with
    the proof that from whole memrefs — `x`'s and `w1`'s buffers at `x0`, `x1`, the accumulator at anything — the body
    runs to the continuation with the inputs as they were and the accumulator with those pieces written. -/
noncomputable def kernelRun0_A (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : cond0_0 i) (hc1 : cond0_1 i) (hc2 : ¬cond0_2 i)
    (x0 : Vec F S128x4096 .f32) (x1 : Vec F S4096x64 .f32) :
    { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg10 fullShare d)
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%ds, %fs, -, HS0⟩, Hk⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

theorem scover0_A (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : cond0_0 i) (hc1 : cond0_1 i) (hc2 : ¬cond0_2 i)
    (x0 : Vec F S128x4096 .f32) (x1 : Vec F S4096x64 .f32) (y : S128x64.Idx) :
    ∃ pc ∈ (kernelRun0_A c i arg2 harg2 arg3 harg3 arg4 harg4 arg5 harg5 arg6 harg6 arg7 harg7 arg8 harg8 arg9 harg9 arg10 harg10 hc0 hc1 hc2 x0 x1).1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1).1 S128x64.size (by sl_kernel_rfl) y

/-- What tile 0 leaves in the accumulator: the tile's product added to the zero block. -/
theorem sout0_A (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : cond0_0 i) (hc1 : cond0_1 i) (hc2 : ¬cond0_2 i)
    (x0 : Vec F S128x4096 .f32) (x1 : Vec F S4096x64 .f32) :
    VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 x0 x1).1)
      = k0_pay2 (k0_pay1 (F := F)) x0 x1 := by
  rw [View.read_writes_eq_canon _ _ _ (scover0_A c i arg2 harg2 arg3 harg3 arg4 harg4 arg5 harg5 arg6 harg6 arg7 harg7 arg8 harg8 arg9 harg9 arg10 harg10 hc0 hc1 hc2 x0 x1)]
  unfold kernelRun0_A
  dsimp only
  sl_unfold_words
  rw [View.canon_cons_unit_zero (S := S128x64) hz2, View.readCov_unit_zero (S := S128x64) _ hz2]
  simp only [View.readAt_eq_ld, harg2.read_unread, harg3.read_unread, View.ld_unit_zero (S := S128x4096) hz2, View.ld_unit_zero (S := S4096x64) hz2]

set_option maxHeartbeats 1000000 in
/-- TILES 1‥9 (the accumulation alone): the piece the one store leaves in the accumulator, found at `xs0`. -/
noncomputable def kernelRun0_B (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : cond0_1 i) (hc2 : ¬cond0_2 i)
    (x0 : Vec F S128x4096 .f32) (x1 : Vec F S4096x64 .f32) (xs0 : Vec F S128x64 .f32) :
    { LS0 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg10 fullShare xs0
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%fs, %hfs, HS0⟩, Hk⟩
    obtain rfl := harg2.eq_unread hf0; obtain rfl := harg3.eq_unread hf1; obtain rfl := harg10.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

theorem scover0_B (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : cond0_1 i) (hc2 : ¬cond0_2 i)
    (x0 : Vec F S128x4096 .f32) (x1 : Vec F S4096x64 .f32) (xs0 : Vec F S128x64 .f32) (y : S128x64.Idx) :
    ∃ pc ∈ (kernelRun0_B c i arg2 harg2 arg3 harg3 arg4 harg4 arg5 harg5 arg6 harg6 arg7 harg7 arg8 harg8 arg9 harg9 arg10 harg10 hc0 hc1 hc2 x0 x1 xs0).1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 xs0).1 S128x64.size (by sl_kernel_rfl) y

/-- What tiles 1‥9 leave in the accumulator: the tile's product added to what it held. -/
theorem sout0_B (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : cond0_1 i) (hc2 : ¬cond0_2 i)
    (x0 : Vec F S128x4096 .f32) (x1 : Vec F S4096x64 .f32) (xs0 : Vec F S128x64 .f32) :
    VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 hc2 x0 x1 xs0).1)
      = k0_pay2 xs0 x0 x1 := by
  rw [View.read_writes_eq_canon _ _ _ (scover0_B c i arg2 harg2 arg3 harg3 arg4 harg4 arg5 harg5 arg6 harg6 arg7 harg7 arg8 harg8 arg9 harg9 arg10 harg10 hc0 hc1 hc2 x0 x1 xs0)]
  unfold kernelRun0_B
  dsimp only
  sl_unfold_words
  rw [View.canon_unit_zero (S := S128x64) hz2]
  simp only [View.readAt_eq_ld, harg2.read_unread, harg3.read_unread, harg10.read_unread, View.ld_unit_zero (S := S128x4096) hz2, View.ld_unit_zero (S := S4096x64) hz2, View.ld_unit_zero (S := S128x64) hz2]

set_option maxHeartbeats 2000000 in
/-- TILE 10 (the tail alone): the piece the one store leaves in the output's buffer; every input and the accumulator
    are handed back as they were. -/
noncomputable def kernelRun0_C (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : ¬cond0_1 i) (hc2 : cond0_2 i)
    (x0 : Vec F S128x4096 .f32) (x1 : Vec F S4096x64 .f32) (x2 : Vec F S1x64 .f32) (x3 : Vec F S64x32 .f32) (x4 : Vec F S1x32 .f32) (x5 : Vec F S32x6 .f32) (x6 : Vec F S1x6 .f32) (xs0 : Vec F S128x64 .f32) :
    { L7 : List (View.Piece (Elt F) S128x6 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg10.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; isplitr; · ipureintro; exact harg10.read_unread _
    iexact HS0

theorem cover0_C (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : ¬cond0_1 i) (hc2 : cond0_2 i)
    (x0 : Vec F S128x4096 .f32) (x1 : Vec F S4096x64 .f32) (x2 : Vec F S1x64 .f32) (x3 : Vec F S64x32 .f32) (x4 : Vec F S1x32 .f32) (x5 : Vec F S32x6 .f32) (x6 : Vec F S1x6 .f32) (xs0 : Vec F S128x64 .f32) (y : S128x6.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 x3 x4 x5 x6 xs0).1 S128x6.size (by sl_kernel_rfl) y

/-- What tile 10 leaves in the output's buffer: the head's payload of what the buffers and the accumulator hold. -/
theorem out0_C (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : ¬cond0_1 i) (hc2 : cond0_2 i)
    (x0 : Vec F S128x4096 .f32) (x1 : Vec F S4096x64 .f32) (x2 : Vec F S1x64 .f32) (x3 : Vec F S64x32 .f32) (x4 : Vec F S1x32 .f32) (x5 : Vec F S32x6 .f32) (x6 : Vec F S1x6 .f32) (xs0 : Vec F S128x64 .f32) :
    VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 hc2 x0 x1 x2 x3 x4 x5 x6 xs0).1)
      = k0_pay3 x0 xs0 x1 x2 x3 x4 x5 x6 := by
  rw [View.read_writes_eq_canon _ _ _ (cover0_C c i arg2 harg2 arg3 harg3 arg4 harg4 arg5 harg5 arg6 harg6 arg7 harg7 arg8 harg8 arg9 harg9 arg10 harg10 hc0 hc1 hc2 x0 x1 x2 x3 x4 x5 x6 xs0)]
  unfold kernelRun0_C
  dsimp only
  sl_unfold_words
  rw [View.canon_unit_zero (S := S128x6) hz2]
  simp only [View.readAt_eq_ld, harg2.read_unread, harg3.read_unread, harg4.read_unread, harg5.read_unread, harg6.read_unread, harg7.read_unread, harg8.read_unread, harg10.read_unread, View.ld_unit_zero (S := S128x4096) hz2, View.ld_unit_zero (S := S4096x64) hz2, View.ld_unit_zero (S := S128x64) hz2, View.ld_unit_zero (S := S1x64) hz2, View.ld_unit_zero (S := S64x32) hz2, View.ld_unit_zero (S := S1x32) hz2, View.ld_unit_zero (S := S32x6) hz2, View.ld_unit_zero (S := S1x6) hz2]

/-! ## Where the windows are idle, and what the body finds -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- The output's window is idle exactly off the tile-10 points, and is written back exactly at them. -/
theorem idleAt0_7 : ∀ t : Fin cfg0.N, ¬t.val % 11 = 10 → cfg0.idle 7 (grid0.coords t) = true := by decide +kernel
theorem liveAt0_7 : ∀ t : Fin cfg0.N, t.val % 11 = 10 → cfg0.idle 7 (grid0.coords t) = false := by decide +kernel
theorem noFlush0_7 (t : Fin cfg0.N) (h : ¬t.val % 11 = 10) : (cfg0.win 7).flush t = false :=
  Bool.eq_false_iff.mpr fun hf => h ((flush0_7 t).mp hf)

/-- Off the last tile `x`'s window is not cut. -/
theorem clip_none0_0 : ∀ t : Fin cfg0.N, ¬t.val % 11 = 10 → ∀ a, (cfg0.win 0).clip (cfg0.grid.coords t) a = none := by decide +kernel

/-- `x`'s buffer, fetched at every point, holds its block's part inside the array, `d` past it. -/
theorem before0_0 (c : Dev nD) (t : Fin cfg0.N) (d) :
    (dats m 0 c).before 0 t d = win0_0.fill (grid0.coords t) d (xraw m c t) := by
  unfold Dat.before; rw [if_pos (fetch0_0 t)]
  unfold Dat.fetched Dat.blockOf xraw; rw [A_eq]

/-- Off the last tile that is the block filled out with zeros: nothing of `d` is left. -/
theorem before0_0_full (c : Dev nD) (t : Fin cfg0.N) (h : ¬t.val % 11 = 10) (d) :
    (dats m 0 c).before 0 t d = xfull m c t := by
  unfold Dat.before; rw [if_pos (fetch0_0 t)]
  rw [(dats m 0 c).fetched_of_clip_none 0 t (clip_none0_0 t h) d (fun _ => Scalar.ofBits .f32 0x00000000#32)]
  unfold Dat.fetched Dat.blockOf xfull xraw; rw [A_eq]

/-- So off the last tile whatever fills the buffer past the array's end is not there: the buffer is the block. -/
theorem fill_full (c : Dev nD) (t : Fin cfg0.N) (h : ¬t.val % 11 = 10) (d) :
    win0_0.fill (grid0.coords t) d (xraw m c t) = xfull m c t :=
  (before0_0 m c t d).symm.trans (before0_0_full m c t h d)

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns: `x`'s buffer stated on its part inside the array (the window is loose), every other buffer
    exactly. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t)

/-- A live input window that is not loose is left at its block. -/
theorem leaves_in (c : Dev nD) (w : Fin cfg0.W) (t : Fin cfg0.N) (hl : cfg0.idle w (grid0.coords t) = false) (hw : cfg0.loose w = false) :
    (dats m 0 c).leaves w t = owns (c : Thread nD τ) ((cfg0.win w).stage (cfg0.slots t w)) fullShare ((dats m 0 c).after w t) := by
  unfold Dat.leaves; rw [hl, hw]

/-- `x`'s window, live and loose: left at anything that is its block on the part inside the array. -/
theorem leaves_x (c : Dev nD) (t : Fin cfg0.N) :
    (dats m 0 c).leaves 0 t = iprop(∃ d, owns (c : Thread nD τ) (ms0_0 t) fullShare (win0_0.fill (grid0.coords t) d (xraw m c t))) := by
  unfold Dat.leaves; rw [liveAt0_0 t]
  show iprop(∃ d, owns (c : Thread nD τ) (ms0_0 t) fullShare (win0_0.fill (grid0.coords t) d (win0_0.cut (grid0.coords t) ((dats m 0 c).after 0 t)))) = _
  rw [after0_0]; unfold xfull; rw [win0_0.cut_fill]

set_option maxHeartbeats 4800000 in
/-- The body at any point. The tile number picks the branch pattern; the inputs' buffers hold their blocks; the
    accumulator holds what the point before left (anything at the very first point); the run of that pattern applies,
    and what it leaves is `accAt` / `outAt` by the payload lemmas — at tile 10 through `pay3_mask`, the buffer's
    words past the array's end not being read. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_x,
    leaves_in m c 1 t (liveAt0_1 t) rfl, leaves_in m c 2 t (liveAt0_2 t) rfl, leaves_in m c 3 t (liveAt0_3 t) rfl,
    leaves_in m c 4 t (liveAt0_4 t) rfl, leaves_in m c 5 t (liveAt0_5 t) rfl, leaves_in m c 6 t (liveAt0_6 t) rfl,
    after0_1, after0_2, after0_3, after0_4, after0_5, after0_6]
  have hN : t.val < 22 := lt_of_lt_of_eq t.isLt (show cfg0.N = 22 from N_0)
  by_cases h10 : t.val % 11 = 10
  · -- tile 10
    have h0 : ¬t.val % 11 = 0 := by omega
    have hz : t.val ≠ 0 := by omega
    rw [show (dats m 0 c).leaves 7 t = owns (c : Thread nD τ) (ms0_7 t) fullShare ((dats m 0 c).after 7 t) from by
      unfold Dat.leaves; rw [liveAt0_7 t h10], after0_7]
    rw [accAt_last m c t h10]
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [before0_0 m c t d0]
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => (hcond0_1 t).mp h h10) ((hcond0_2 t).mpr h10)
      (win0_0.fill (grid0.coords t) d0 (xraw m c t)) (iblk m c 1 t) (iblk m c 2 t) (iblk m c 3 t) (iblk m c 4 t) (iblk m c 5 t) (iblk m c 6 t)
      (accAt m c (t.val - 1) (by omega))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, HS0⟩
    isplitl [HS0 Hg]
    · isplitl [HS0]; · iexact HS0
      iexact Hg
    isplitl [Ho]; · iexact Ho
    isplitl [H0]; · iexists _; iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    refine (View.read_writes_of_cover _ _ VO0_7 VO0_7.junk _ (cover0_C c _ _ _ _ _ _ _ _ _ _ _ _ _ _ _ _ _ _ _ _ _ _ _ _ _ _ _ _ _ _)).trans ?_
    refine (out0_C c _ _ _ _ _ _ _ _ _ _ _ _ _ _ _ _ _ _ _ _ _ _ _ _ _ _ _ _ _ _).trans ?_
    unfold outAt xfull
    exact pay3_mask t h10 _ _ _ _ _ _ _ _ _ _
  · -- tiles 0‥9: the output's window idle, `x`'s window uncut
    rw [Dat.leaves_idle (dats m 0 c) 7 t (idleAt0_7 t h10) (noFlush0_7 t h10)]
    by_cases h0 : t.val % 11 = 0
    · -- tile 0
      rw [accAt_first m c t h0]
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, H7⟩
        rw [before0_0 m c t d0]
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h10) (fun h => h10 ((hcond0_2 t).mp h))
          (win0_0.fill (grid0.coords t) d0 (xraw m c t)) (iblk m c 1 t)).2 Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro
            refine (View.read_writes_of_cover _ _ VS0_0 VS0_0.junk _ (scover0_A c _ _ _ _ _ _ _ _ _ _ _ _ _ _ _ _ _ _ _ _ _ _ _ _)).trans ?_
            refine (sout0_A c _ _ _ _ _ _ _ _ _ _ _ _ _ _ _ _ _ _ _ _ _ _ _ _).trans ?_
            rw [fill_full m c t h10 d0]
          iexact Hg
        isplitl [Ho]; · iexact Ho
        isplitl [H0]; · iexists _; iexact H0
        isplitl [H1]; · iexact H1
        isplitl [H2]; · iexact H2
        isplitl [H3]; · iexact H3
        isplitl [H4]; · iexact H4
        isplitl [H5]; · iexact H5
        isplitl [H6]; · iexact H6
        iexact H7
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, H7⟩
        rw [before0_0 m c t d0]
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h10) (fun h => h10 ((hcond0_2 t).mp h))
          (win0_0.fill (grid0.coords t) d0 (xraw m c t)) (iblk m c 1 t)).2 Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro
            refine (View.read_writes_of_cover _ _ VS0_0 VS0_0.junk _ (scover0_A c _ _ _ _ _ _ _ _ _ _ _ _ _ _ _ _ _ _ _ _ _ _ _ _)).trans ?_
            refine (sout0_A c _ _ _ _ _ _ _ _ _ _ _ _ _ _ _ _ _ _ _ _ _ _ _ _).trans ?_
            rw [fill_full m c t h10 d0]
          iexact Hg
        isplitl [Ho]; · iexact Ho
        isplitl [H0]; · iexists _; iexact H0
        isplitl [H1]; · iexact H1
        isplitl [H2]; · iexact H2
        isplitl [H3]; · iexact H3
        isplitl [H4]; · iexact H4
        isplitl [H5]; · iexact H5
        isplitl [H6]; · iexact H6
        iexact H7
    · -- tiles 1‥9
      have hz : t.val ≠ 0 := fun h => h0 (by rw [h])
      rw [accAt_mid m c t h0 h10]
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, H7⟩
      rw [before0_0 m c t d0]
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h10) (fun h => h10 ((hcond0_2 t).mp h))
        (win0_0.fill (grid0.coords t) d0 (xraw m c t)) (iblk m c 1 t) (accAt m c (t.val - 1) (by omega))).2 Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro
          refine (View.read_writes_of_cover _ _ VS0_0 VS0_0.junk _ (scover0_B c _ _ _ _ _ _ _ _ _ _ _ _ _ _ _ _ _ _ _ _ _ _ _ _ _)).trans ?_
          refine (sout0_B c _ _ _ _ _ _ _ _ _ _ _ _ _ _ _ _ _ _ _ _ _ _ _ _ _).trans ?_
          rw [fill_full m c t h10 d0]
        iexact Hg
      isplitl [Ho]; · iexact Ho
      isplitl [H0]; · iexists _; iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation (loose form), at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 22 := N_0; omega), PhiA0_eq]
  iintro ⟨HS0, Hg⟩
  isplitl [HS0]
  · iexists _; iexact HS0
  iexact Hg

/-! ## The run and the frame -/

set_option backward.isDefEq.respectTransparency.types false in
/-- At the compiled mesh, for any values, from any memory with zero counters: every weakly fair execution of @main
    terminates, and every final state has every array of the pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KIDefs.lean ====
/-
  What the fused kernel's staging buffers and its accumulator hold, point by point.

  The grid is 2 × 11: the first coordinate picks a block of 128 rows, the second a tile of 4096 columns of `x` (and
  the matching 4096 rows of `w1`). In linear order point `t` is row block `t / 11`, tile `t % 11`. The body has
  three branches on the tile number: tile 0 zeroes the accumulator; tiles 0‥9 add the tile's product into it;
  tile 10 masks the tile's columns past 2848 (the array has 43808 = 10 · 4096 + 2848 columns, so the last tile's
  buffer is only partly filled by the fetch and its tail holds words nothing names), adds the masked product to the
  accumulator's value WITHOUT storing it back, and runs the two small layers into the output block. So after point
  `t` the accumulator holds the sum of the products of the row block's tiles 0‥min(t % 11, 9) (`accAt`), and the
  output's staging buffer at a tile-10 point holds the head of the full contraction (`outAt`).
-/
import proofs.«100141_g2000406171838923_pallasbulk_1035_2_alg».proof.Proof.Gen.KernelIdeal.Frame
import proofs.«100141_g2000406171838923_pallasbulk_1035_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three branch conditions over the grid -/

/-- "The tile number is 0", as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 11 = 0 :=
  (by decide +kernel : ∀ t : Fin grid0.N, cond0_0 (grid0.coords t) ↔ t.val % 11 = 0)

/-- "The tile number is below 10". -/
abbrev cond0_1 (i : grid0.Coords) : Prop := (Scalar.cmpi .ne (Scalar.extui (Scalar.cmpi .slt (BitVec.ofNat 32 (i 1).val) 10#32)) 0#32) = 1#1
theorem hcond0_1 : ∀ t : Fin cfg0.N, cond0_1 (grid0.coords t) ↔ ¬t.val % 11 = 10 :=
  (by decide +kernel : ∀ t : Fin grid0.N, cond0_1 (grid0.coords t) ↔ ¬t.val % 11 = 10)

/-- "The tile number is 10". -/
abbrev cond0_2 (i : grid0.Coords) : Prop := k0_cond3 i = 1#1
theorem hcond0_2 : ∀ t : Fin cfg0.N, cond0_2 (grid0.coords t) ↔ t.val % 11 = 10 :=
  (by decide +kernel : ∀ t : Fin grid0.N, cond0_2 (grid0.coords t) ↔ t.val % 11 = 10)

/-! ## The blocks -/

/-- The part of `x`'s block at point `t` that lies inside the array (all 4096 columns at tiles 0‥9, the first 2848
    at tile 10), as the fetch reads it. -/
def xraw (c : Dev nD) (t : Fin cfg0.N) : (win0_0.xblock (grid0.coords t)).Idx → Elt F .f32 :=
  (win0_0.blk t).view.read (Elt F) (V m c main_arg0)

/-- The same filled out to the whole 128 × 4096 buffer with zeros past the array's last column. -/
def xfull (c : Dev nD) (t : Fin cfg0.N) : Vec F S128x4096 .f32 :=
  win0_0.fill (grid0.coords t) (fun _ => Scalar.ofBits .f32 0x00000000#32) (xraw m c t)

/-- The accumulator after point `n`: at a tile 0 the tile's product added to the zero block; at tiles 1‥9 the
    tile's product added to what the point before left; at tile 10 what the point before left. -/
def accAt (c : Dev nD) : (n : ℕ) → n < cfg0.N → Vec F S128x64 .f32
  | 0, h => k0_pay2 (k0_pay1 (F := F)) (xfull m c ⟨0, h⟩) (iblk m c 1 ⟨0, h⟩)
  | n + 1, h =>
    if (n + 1) % 11 = 0 then k0_pay2 (k0_pay1 (F := F)) (xfull m c ⟨n + 1, h⟩) (iblk m c 1 ⟨n + 1, h⟩)
    else if (n + 1) % 11 = 10 then accAt c n (Nat.lt_of_succ_lt h)
    else k0_pay2 (accAt c n (Nat.lt_of_succ_lt h)) (xfull m c ⟨n + 1, h⟩) (iblk m c 1 ⟨n + 1, h⟩)

/-- At a tile 0: the tile's product over the zero block. -/
theorem accAt_first (c : Dev nD) (t : Fin cfg0.N) (h : t.val % 11 = 0) :
    accAt m c t.val t.isLt = k0_pay2 (k0_pay1 (F := F)) (xfull m c t) (iblk m c 1 t) := by
  obtain ⟨n, hn⟩ := t
  cases n with
  | zero => rfl
  | succ n => exact if_pos h

/-- At tiles 1‥9: the tile's product over what the point before left. -/
theorem accAt_mid (c : Dev nD) (t : Fin cfg0.N) (h0 : ¬t.val % 11 = 0) (h10 : ¬t.val % 11 = 10) :
    accAt m c t.val t.isLt
      = k0_pay2 (accAt m c (t.val - 1) (Nat.lt_of_le_of_lt (Nat.sub_le _ _) t.isLt)) (xfull m c t) (iblk m c 1 t) := by
  obtain ⟨n, hn⟩ := t
  cases n with
  | zero => exact absurd (Nat.zero_mod _) h0
  | succ n => exact (if_neg h0).trans (if_neg h10)

/-- At tile 10: what the point before left. -/
theorem accAt_last (c : Dev nD) (t : Fin cfg0.N) (h10 : t.val % 11 = 10) :
    accAt m c t.val t.isLt = accAt m c (t.val - 1) (Nat.lt_of_le_of_lt (Nat.sub_le _ _) t.isLt) := by
  obtain ⟨n, hn⟩ := t
  cases n with
  | zero => exact absurd h10 (by dsimp only; omega)
  | succ n => exact (if_neg (by dsimp only at h10 ⊢; omega)).trans (if_pos h10)

/-- What the body leaves in the output's staging buffer at point `t` (consulted at tile-10 points only: elsewhere
    the output's window is idle and not written back): the head of the accumulator the point before left plus the
    masked last tile's product. -/
def outAt (c : Dev nD) (t : Fin cfg0.N) : Vec F S128x6 .f32 :=
  k0_pay3 (xfull m c t) (accAt m c (t.val - 1) (Nat.lt_of_le_of_lt (Nat.sub_le _ _) t.isLt)) (iblk m c 1 t)
    (iblk m c 2 t) (iblk m c 3 t) (iblk m c 4 t) (iblk m c 5 t) (iblk m c 6 t)

/-! ## The accumulator as a memref, and the region's invariant -/

/-- The accumulator: a whole scoped buffer of the kernel's own, passed beside the windows. -/
abbrev scM0_0 : Memref sig .tc .vmem S128x64 .f32 := Memref.whole cc0_scratch0

/-- The class's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The region's invariant before position `n`: before the first point the accumulator holds anything; afterwards
    what the point before left (`accAt`); the generator register at some state throughout. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The pipeline's proof data -/

/-- The arrays as the region finds them; after the body at point `t`: `x`'s buffer at its block filled out with
    zeros (only its part inside the array is ever stated: the window is loose), every other input's at its block,
    the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

end Cert.KernelIdeal.Hand

end
-- ==== Proof.KIMask.lean ====
/-
  The tail's payload does not read the columns of `x`'s buffer past the array's end.

  At a tile-10 point the fetch fills the first 2848 columns of the 128 × 4096 buffer and leaves the rest at words nothing
  names. The tail selects, column by column, the buffer's entry where the column number is below 2848 and zero
  elsewhere, before anything else reads the buffer; so two buffers that agree on the filled part give the same payload.
-/
import proofs.«100141_g2000406171838923_pallasbulk_1035_2_alg».proof.Proof.KIDefs
import Idealize.ShloMosaic.Lib.StableHlo.Predicate
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

/-- At a tile-10 point the fetch moves all 128 rows and the first 2848 columns of the block. -/
theorem xsize_tail : ∀ t : Fin cfg0.N, t.val % 11 = 10 →
    win0_0.xsize (grid0.coords t) 0 = 128 ∧ win0_0.xsize (grid0.coords t) 1 = 2848 :=
  (by decide +kernel : ∀ t : Fin grid0.N, t.val % 11 = 10 →
    win0_0.xsize (grid0.coords t) 0 = 128 ∧ win0_0.xsize (grid0.coords t) 1 = 2848)

/-- So at such a point an index of the block is moved exactly when its column is below 2848. -/
theorem moved_tail (t : Fin cfg0.N) (h : t.val % 11 = 10) (j : S128x4096.Idx) :
    win0_0.moved (grid0.coords t) j = true ↔ (j 1).val < 2848 := by
  rw [Window.moved_iff]
  obtain ⟨h0, h1⟩ := xsize_tail t h
  constructor
  · intro H
    have := H 1
    rw [h1] at this
    exact this
  · intro H a
    fin_cases a
    · show (j 0).val < win0_0.xsize (grid0.coords t) 0
      rw [h0]
      exact (j 0).isLt
    · show (j 1).val < win0_0.xsize (grid0.coords t) 1
      rw [h1]
      exact H

/-- The mask bit at an index is set exactly when the column is below 2848: the column number is below 4096, so the
    signed 32-bit comparison is the comparison of the natural numbers. -/
theorem mask_iff (j : S128x4096.Idx) :
    cmpi .slt (iota .tc S128x4096 32 [1] iota_S128x4096_d1_w32) (broadcast S128x4096 2848#32) j = 1#1
      ↔ (j 1).val < 2848 := by
  have hj : (j 1).val < 4096 := (j 1).isLt
  show IntOp.cmpi .slt (iota .tc S128x4096 32 [1] iota_S128x4096_d1_w32 j) 2848#32 = 1#1 ↔ _
  rw [iota_single_apply, StableHlo.Predicate.slt_iff_toNat (by rw [BitVec.toNat_ofNat]; omega) (by decide)]
  rw [BitVec.toNat_ofNat, Nat.mod_eq_of_lt (by omega)]
  rfl

/-- At a tile-10 point the head's payload of `x`'s buffer filled with `d` past the array's end is its payload of the
    buffer filled with `d'` there. -/
theorem pay3_mask (t : Fin cfg0.N) (h : t.val % 11 = 10) (d d' : S128x4096.Idx → Elt F .f32)
    (g : (win0_0.xblock (grid0.coords t)).Idx → Elt F .f32)
    (xs : Vec F S128x64 .f32) (x1 : Vec F S4096x64 .f32) (x2 : Vec F S1x64 .f32) (x3 : Vec F S64x32 .f32) (x4 : Vec F S1x32 .f32)
    (x5 : Vec F S32x6 .f32) (x6 : Vec F S1x6 .f32) :
    k0_pay3 (win0_0.fill (grid0.coords t) d g) xs x1 x2 x3 x4 x5 x6
      = k0_pay3 (win0_0.fill (grid0.coords t) d' g) xs x1 x2 x3 x4 x5 x6 := by
  -- the masked buffers are equal: below column 2848 both read `g`, from there on both read the zero
  have hsel : ∀ z : Vec F S128x4096 .f32,
      select (cmpi .slt (iota .tc S128x4096 32 [1] iota_S128x4096_d1_w32) (broadcast S128x4096 2848#32))
          (win0_0.fill (grid0.coords t) d g) z
        = select (cmpi .slt (iota .tc S128x4096 32 [1] iota_S128x4096_d1_w32) (broadcast S128x4096 2848#32))
          (win0_0.fill (grid0.coords t) d' g) z := by
    intro z
    funext j
    show Scalar.select _ (win0_0.fill (grid0.coords t) d g j) (z j)
      = Scalar.select _ (win0_0.fill (grid0.coords t) d' g j) (z j)
    by_cases hj : (j 1).val < 2848
    · have hm := (moved_tail t h j).mpr hj
      unfold Window.fill
      rw [dif_pos hm, dif_pos hm]
    · have hM : ¬ cmpi .slt (iota .tc S128x4096 32 [1] iota_S128x4096_d1_w32) (broadcast S128x4096 2848#32) j = 1 :=
        fun e => hj ((mask_iff j).mp e)
      unfold Scalar.select
      rw [if_neg hM, if_neg hM]
  -- and the payload reads the buffer through that mask only
  unfold k0_pay3
  dsimp only
  rw [hsel]

end Cert.KernelIdeal.Hand

end
-- ==== Proof.KIFrame.lean ====
/-
  The fused kernel's frame: every weakly fair execution of @main terminates without a fault, the arguments unchanged, and
  the arrays end at what the proof data of KIDefs compute.

  The body is run once per branch pattern (tile 0; tiles 1‥9; tile 10) on any whole staging memrefs; what each run
  leaves in the accumulator and in the output's buffer is read back as the payloads KIDefs names (`accAt`, `outAt`).
  `x`'s window is clipped at the last tile: its buffer there holds the 2848 columns inside the array and, past them,
  words nothing names; the body masks exactly those columns, so what it computes does not depend on them (`pay3_mask`).
-/
import proofs.«100141_g2000406171838923_pallasbulk_1035_2_alg».proof.Proof.KIDefs
import proofs.«100141_g2000406171838923_pallasbulk_1035_2_alg».proof.Proof.KIMask
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x6 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x6 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x6 .f32 := win0_7.stage (cfg0.slots t 7)
abbrev hs0_7 (t : Fin cfg0.N) : (ms0_7 t).IsWhole := hstage0_7 ((cfg0.slots t 7).cast nbuf0_7)

/-- One view through which the output buffer's contents are stated (the choice does not matter once the pieces cover). -/
abbrev VO0_7 : View sig .tc .vmem S128x6 .f32 := (Memref.whole cc0_stg7_0 : Memref sig .tc .vmem S128x6 .f32).view
/-- The accumulator as a view. -/
abbrev VS0_0 : View sig .tc .vmem S128x64 .f32 := scM0_0.view

theorem hz2 : (![0, 0] : Fin 2 → Nat) = fun _ => 0 := funext fun a => by fin_cases a <;> rfl

/-! ## The body, branch pattern by branch pattern -/

set_option maxHeartbeats 1000000 in
/-- TILE 0 (both the reset and the accumulation taken): the pieces the body's two stores leave in the accumulator, with
    the proof that from whole memrefs — `x`'s and `w1`'s buffers at `x0`, `x1`, the accumulator at anything — the body
    runs to the continuation with the inputs as they were and the accumulator with those pieces written. -/
noncomputable def kernelRun0_A (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : cond0_0 i) (hc1 : cond0_1 i) (hc2 : ¬cond0_2 i)
    (x0 : Vec F S128x4096 .f32) (x1 : Vec F S4096x64 .f32) :
    { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg10 fullShare d)
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%ds, %fs, -, HS0⟩, Hk⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

theorem scover0_A (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : cond0_0 i) (hc1 : cond0_1 i) (hc2 : ¬cond0_2 i)
    (x0 : Vec F S128x4096 .f32) (x1 : Vec F S4096x64 .f32) (y : S128x64.Idx) :
    ∃ pc ∈ (kernelRun0_A c i arg2 harg2 arg3 harg3 arg4 harg4 arg5 harg5 arg6 harg6 arg7 harg7 arg8 harg8 arg9 harg9 arg10 harg10 hc0 hc1 hc2 x0 x1).1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1).1 S128x64.size (by sl_kernel_rfl) y

/-- What tile 0 leaves in the accumulator: the tile's product added to the zero block. -/
theorem sout0_A (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : cond0_0 i) (hc1 : cond0_1 i) (hc2 : ¬cond0_2 i)
    (x0 : Vec F S128x4096 .f32) (x1 : Vec F S4096x64 .f32) :
    VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 x0 x1).1)
      = k0_pay2 (k0_pay1 (F := F)) x0 x1 := by
  rw [View.read_writes_eq_canon _ _ _ (scover0_A c i arg2 harg2 arg3 harg3 arg4 harg4 arg5 harg5 arg6 harg6 arg7 harg7 arg8 harg8 arg9 harg9 arg10 harg10 hc0 hc1 hc2 x0 x1)]
  unfold kernelRun0_A
  dsimp only
  sl_unfold_words
  rw [View.canon_cons_unit_zero (S := S128x64) hz2, View.readCov_unit_zero (S := S128x64) _ hz2]
  simp only [View.readAt_eq_ld, harg2.read_unread, harg3.read_unread, View.ld_unit_zero (S := S128x4096) hz2, View.ld_unit_zero (S := S4096x64) hz2]

set_option maxHeartbeats 1000000 in
/-- TILES 1‥9 (the accumulation alone): the piece the one store leaves in the accumulator, found at `xs0`. -/
noncomputable def kernelRun0_B (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : cond0_1 i) (hc2 : ¬cond0_2 i)
    (x0 : Vec F S128x4096 .f32) (x1 : Vec F S4096x64 .f32) (xs0 : Vec F S128x64 .f32) :
    { LS0 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg10 fullShare xs0
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%fs, %hfs, HS0⟩, Hk⟩
    obtain rfl := harg2.eq_unread hf0; obtain rfl := harg3.eq_unread hf1; obtain rfl := harg10.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

theorem scover0_B (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : cond0_1 i) (hc2 : ¬cond0_2 i)
    (x0 : Vec F S128x4096 .f32) (x1 : Vec F S4096x64 .f32) (xs0 : Vec F S128x64 .f32) (y : S128x64.Idx) :
    ∃ pc ∈ (kernelRun0_B c i arg2 harg2 arg3 harg3 arg4 harg4 arg5 harg5 arg6 harg6 arg7 harg7 arg8 harg8 arg9 harg9 arg10 harg10 hc0 hc1 hc2 x0 x1 xs0).1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 xs0).1 S128x64.size (by sl_kernel_rfl) y

/-- What tiles 1‥9 leave in the accumulator: the tile's product added to what it held. -/
theorem sout0_B (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : cond0_1 i) (hc2 : ¬cond0_2 i)
    (x0 : Vec F S128x4096 .f32) (x1 : Vec F S4096x64 .f32) (xs0 : Vec F S128x64 .f32) :
    VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 hc2 x0 x1 xs0).1)
      = k0_pay2 xs0 x0 x1 := by
  rw [View.read_writes_eq_canon _ _ _ (scover0_B c i arg2 harg2 arg3 harg3 arg4 harg4 arg5 harg5 arg6 harg6 arg7 harg7 arg8 harg8 arg9 harg9 arg10 harg10 hc0 hc1 hc2 x0 x1 xs0)]
  unfold kernelRun0_B
  dsimp only
  sl_unfold_words
  rw [View.canon_unit_zero (S := S128x64) hz2]
  simp only [View.readAt_eq_ld, harg2.read_unread, harg3.read_unread, harg10.read_unread, View.ld_unit_zero (S := S128x4096) hz2, View.ld_unit_zero (S := S4096x64) hz2, View.ld_unit_zero (S := S128x64) hz2]

set_option maxHeartbeats 2000000 in
/-- TILE 10 (the tail alone): the piece the one store leaves in the output's buffer; every input and the accumulator
    are handed back as they were. -/
noncomputable def kernelRun0_C (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : ¬cond0_1 i) (hc2 : cond0_2 i)
    (x0 : Vec F S128x4096 .f32) (x1 : Vec F S4096x64 .f32) (x2 : Vec F S1x64 .f32) (x3 : Vec F S64x32 .f32) (x4 : Vec F S1x32 .f32) (x5 : Vec F S32x6 .f32) (x6 : Vec F S1x6 .f32) (xs0 : Vec F S128x64 .f32) :
    { L7 : List (View.Piece (Elt F) S128x6 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg10.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; isplitr; · ipureintro; exact harg10.read_unread _
    iexact HS0

theorem cover0_C (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : ¬cond0_1 i) (hc2 : cond0_2 i)
    (x0 : Vec F S128x4096 .f32) (x1 : Vec F S4096x64 .f32) (x2 : Vec F S1x64 .f32) (x3 : Vec F S64x32 .f32) (x4 : Vec F S1x32 .f32) (x5 : Vec F S32x6 .f32) (x6 : Vec F S1x6 .f32) (xs0 : Vec F S128x64 .f32) (y : S128x6.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 x3 x4 x5 x6 xs0).1 S128x6.size (by sl_kernel_rfl) y

/-- What tile 10 leaves in the output's buffer: the head's payload of what the buffers and the accumulator hold. -/
theorem out0_C (c : Dev nD) (i : grid0.Coords) (arg2 : Memref sig .tc .vmem S128x4096 .f32) (harg2 : arg2.IsWhole) (arg3 : Memref sig .tc .vmem S4096x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x6 .f32) (harg7 : arg7.IsWhole) (arg8 : Memref sig .tc .vmem S1x6 .f32) (harg8 : arg8.IsWhole) (arg9 : Memref sig .tc .vmem S128x6 .f32) (harg9 : arg9.IsWhole) (arg10 : Memref sig .tc .vmem S128x64 .f32) (harg10 : arg10.IsWhole) (hc0 : ¬cond0_0 i) (hc1 : ¬cond0_1 i) (hc2 : cond0_2 i)
    (x0 : Vec F S128x4096 .f32) (x1 : Vec F S4096x64 .f32) (x2 : Vec F S1x64 .f32) (x3 : Vec F S64x32 .f32) (x4 : Vec F S1x32 .f32) (x5 : Vec F S32x6 .f32) (x6 : Vec F S1x6 .f32) (xs0 : Vec F S128x64 .f32) :
    VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 hc2 x0 x1 x2 x3 x4 x5 x6 xs0).1)
      = k0_pay3 x0 xs0 x1 x2 x3 x4 x5 x6 := by
  rw [View.read_writes_eq_canon _ _ _ (cover0_C c i arg2 harg2 arg3 harg3 arg4 harg4 arg5 harg5 arg6 harg6 arg7 harg7 arg8 harg8 arg9 harg9 arg10 harg10 hc0 hc1 hc2 x0 x1 x2 x3 x4 x5 x6 xs0)]
  unfold kernelRun0_C
  dsimp only
  sl_unfold_words
  rw [View.canon_unit_zero (S := S128x6) hz2]
  simp only [View.readAt_eq_ld, harg2.read_unread, harg3.read_unread, harg4.read_unread, harg5.read_unread, harg6.read_unread, harg7.read_unread, harg8.read_unread, harg10.read_unread, View.ld_unit_zero (S := S128x4096) hz2, View.ld_unit_zero (S := S4096x64) hz2, View.ld_unit_zero (S := S128x64) hz2, View.ld_unit_zero (S := S1x64) hz2, View.ld_unit_zero (S := S64x32) hz2, View.ld_unit_zero (S := S1x32) hz2, View.ld_unit_zero (S := S32x6) hz2, View.ld_unit_zero (S := S1x6) hz2]

/-! ## Where the windows are idle, and what the body finds -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- The output's window is idle exactly off the tile-10 points, and is written back exactly at them. -/
theorem idleAt0_7 : ∀ t : Fin cfg0.N, ¬t.val % 11 = 10 → cfg0.idle 7 (grid0.coords t) = true := by decide +kernel
theorem liveAt0_7 : ∀ t : Fin cfg0.N, t.val % 11 = 10 → cfg0.idle 7 (grid0.coords t) = false := by decide +kernel
theorem noFlush0_7 (t : Fin cfg0.N) (h : ¬t.val % 11 = 10) : (cfg0.win 7).flush t = false :=
  Bool.eq_false_iff.mpr fun hf => h ((flush0_7 t).mp hf)

/-- Off the last tile `x`'s window is not cut. -/
theorem clip_none0_0 : ∀ t : Fin cfg0.N, ¬t.val % 11 = 10 → ∀ a, (cfg0.win 0).clip (cfg0.grid.coords t) a = none := by decide +kernel

/-- `x`'s buffer, fetched at every point, holds its block's part inside the array, `d` past it. -/
theorem before0_0 (c : Dev nD) (t : Fin cfg0.N) (d) :
    (dats m 0 c).before 0 t d = win0_0.fill (grid0.coords t) d (xraw m c t) := by
  unfold Dat.before; rw [if_pos (fetch0_0 t)]
  unfold Dat.fetched Dat.blockOf xraw; rw [A_eq]

/-- Off the last tile that is the block filled out with zeros: nothing of `d` is left. -/
theorem before0_0_full (c : Dev nD) (t : Fin cfg0.N) (h : ¬t.val % 11 = 10) (d) :
    (dats m 0 c).before 0 t d = xfull m c t := by
  unfold Dat.before; rw [if_pos (fetch0_0 t)]
  rw [(dats m 0 c).fetched_of_clip_none 0 t (clip_none0_0 t h) d (fun _ => Scalar.ofBits .f32 0x00000000#32)]
  unfold Dat.fetched Dat.blockOf xfull xraw; rw [A_eq]

/-- So off the last tile whatever fills the buffer past the array's end is not there: the buffer is the block. -/
theorem fill_full (c : Dev nD) (t : Fin cfg0.N) (h : ¬t.val % 11 = 10) (d) :
    win0_0.fill (grid0.coords t) d (xraw m c t) = xfull m c t :=
  (before0_0 m c t d).symm.trans (before0_0_full m c t h d)

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns: `x`'s buffer stated on its part inside the array (the window is loose), every other buffer
    exactly. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t)

/-- A live input window that is not loose is left at its block. -/
theorem leaves_in (c : Dev nD) (w : Fin cfg0.W) (t : Fin cfg0.N) (hl : cfg0.idle w (grid0.coords t) = false) (hw : cfg0.loose w = false) :
    (dats m 0 c).leaves w t = owns (c : Thread nD τ) ((cfg0.win w).stage (cfg0.slots t w)) fullShare ((dats m 0 c).after w t) := by
  unfold Dat.leaves; rw [hl, hw]

/-- `x`'s window, live and loose: left at anything that is its block on the part inside the array. -/
theorem leaves_x (c : Dev nD) (t : Fin cfg0.N) :
    (dats m 0 c).leaves 0 t = iprop(∃ d, owns (c : Thread nD τ) (ms0_0 t) fullShare (win0_0.fill (grid0.coords t) d (xraw m c t))) := by
  unfold Dat.leaves; rw [liveAt0_0 t]
  show iprop(∃ d, owns (c : Thread nD τ) (ms0_0 t) fullShare (win0_0.fill (grid0.coords t) d (win0_0.cut (grid0.coords t) ((dats m 0 c).after 0 t)))) = _
  rw [after0_0]; unfold xfull; rw [win0_0.cut_fill]

set_option maxHeartbeats 4800000 in
/-- The body at any point. The tile number picks the branch pattern; the inputs' buffers hold their blocks; the
    accumulator holds what the point before left (anything at the very first point); the run of that pattern applies,
    and what it leaves is `accAt` / `outAt` by the payload lemmas — at tile 10 through `pay3_mask`, the buffer's
    words past the array's end not being read. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_x,
    leaves_in m c 1 t (liveAt0_1 t) rfl, leaves_in m c 2 t (liveAt0_2 t) rfl, leaves_in m c 3 t (liveAt0_3 t) rfl,
    leaves_in m c 4 t (liveAt0_4 t) rfl, leaves_in m c 5 t (liveAt0_5 t) rfl, leaves_in m c 6 t (liveAt0_6 t) rfl,
    after0_1, after0_2, after0_3, after0_4, after0_5, after0_6]
  have hN : t.val < 22 := lt_of_lt_of_eq t.isLt (show cfg0.N = 22 from N_0)
  by_cases h10 : t.val % 11 = 10
  · -- tile 10
    have h0 : ¬t.val % 11 = 0 := by omega
    have hz : t.val ≠ 0 := by omega
    rw [show (dats m 0 c).leaves 7 t = owns (c : Thread nD τ) (ms0_7 t) fullShare ((dats m 0 c).after 7 t) from by
      unfold Dat.leaves; rw [liveAt0_7 t h10], after0_7]
    rw [accAt_last m c t h10]
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [before0_0 m c t d0]
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => (hcond0_1 t).mp h h10) ((hcond0_2 t).mpr h10)
      (win0_0.fill (grid0.coords t) d0 (xraw m c t)) (iblk m c 1 t) (iblk m c 2 t) (iblk m c 3 t) (iblk m c 4 t) (iblk m c 5 t) (iblk m c 6 t)
      (accAt m c (t.val - 1) (by omega))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, HS0⟩
    isplitl [HS0 Hg]
    · isplitl [HS0]; · iexact HS0
      iexact Hg
    isplitl [Ho]; · iexact Ho
    isplitl [H0]; · iexists _; iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    refine (View.read_writes_of_cover _ _ VO0_7 VO0_7.junk _ (cover0_C c _ _ _ _ _ _ _ _ _ _ _ _ _ _ _ _ _ _ _ _ _ _ _ _ _ _ _ _ _ _)).trans ?_
    refine (out0_C c _ _ _ _ _ _ _ _ _ _ _ _ _ _ _ _ _ _ _ _ _ _ _ _ _ _ _ _ _ _).trans ?_
    unfold outAt xfull
    exact pay3_mask t h10 _ _ _ _ _ _ _ _ _ _
  · -- tiles 0‥9: the output's window idle, `x`'s window uncut
    rw [Dat.leaves_idle (dats m 0 c) 7 t (idleAt0_7 t h10) (noFlush0_7 t h10)]
    by_cases h0 : t.val % 11 = 0
    · -- tile 0
      rw [accAt_first m c t h0]
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, H7⟩
        rw [before0_0 m c t d0]
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h10) (fun h => h10 ((hcond0_2 t).mp h))
          (win0_0.fill (grid0.coords t) d0 (xraw m c t)) (iblk m c 1 t)).2 Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro
            refine (View.read_writes_of_cover _ _ VS0_0 VS0_0.junk _ (scover0_A c _ _ _ _ _ _ _ _ _ _ _ _ _ _ _ _ _ _ _ _ _ _ _ _)).trans ?_
            refine (sout0_A c _ _ _ _ _ _ _ _ _ _ _ _ _ _ _ _ _ _ _ _ _ _ _ _).trans ?_
            rw [fill_full m c t h10 d0]
          iexact Hg
        isplitl [Ho]; · iexact Ho
        isplitl [H0]; · iexists _; iexact H0
        isplitl [H1]; · iexact H1
        isplitl [H2]; · iexact H2
        isplitl [H3]; · iexact H3
        isplitl [H4]; · iexact H4
        isplitl [H5]; · iexact H5
        isplitl [H6]; · iexact H6
        iexact H7
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, H7⟩
        rw [before0_0 m c t d0]
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h10) (fun h => h10 ((hcond0_2 t).mp h))
          (win0_0.fill (grid0.coords t) d0 (xraw m c t)) (iblk m c 1 t)).2 Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro
            refine (View.read_writes_of_cover _ _ VS0_0 VS0_0.junk _ (scover0_A c _ _ _ _ _ _ _ _ _ _ _ _ _ _ _ _ _ _ _ _ _ _ _ _)).trans ?_
            refine (sout0_A c _ _ _ _ _ _ _ _ _ _ _ _ _ _ _ _ _ _ _ _ _ _ _ _).trans ?_
            rw [fill_full m c t h10 d0]
          iexact Hg
        isplitl [Ho]; · iexact Ho
        isplitl [H0]; · iexists _; iexact H0
        isplitl [H1]; · iexact H1
        isplitl [H2]; · iexact H2
        isplitl [H3]; · iexact H3
        isplitl [H4]; · iexact H4
        isplitl [H5]; · iexact H5
        isplitl [H6]; · iexact H6
        iexact H7
    · -- tiles 1‥9
      have hz : t.val ≠ 0 := fun h => h0 (by rw [h])
      rw [accAt_mid m c t h0 h10]
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, H7⟩
      rw [before0_0 m c t d0]
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h10) (fun h => h10 ((hcond0_2 t).mp h))
        (win0_0.fill (grid0.coords t) d0 (xraw m c t)) (iblk m c 1 t) (accAt m c (t.val - 1) (by omega))).2 Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro
          refine (View.read_writes_of_cover _ _ VS0_0 VS0_0.junk _ (scover0_B c _ _ _ _ _ _ _ _ _ _ _ _ _ _ _ _ _ _ _ _ _ _ _ _ _)).trans ?_
          refine (sout0_B c _ _ _ _ _ _ _ _ _ _ _ _ _ _ _ _ _ _ _ _ _ _ _ _ _).trans ?_
          rw [fill_full m c t h10 d0]
        iexact Hg
      isplitl [Ho]; · iexact Ho
      isplitl [H0]; · iexists _; iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation (loose form), at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 22 := N_0; omega), PhiA0_eq]
  iintro ⟨HS0, Hg⟩
  isplitl [HS0]
  · iexists _; iexact HS0
  iexact Hg

/-! ## The run and the frame -/

set_option backward.isDefEq.respectTransparency.types false in
/-- At the compiled mesh, for any values, from any memory with zero counters: every weakly fair execution of @main
    terminates, and every final state has every array of the pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.Spec.lean ====
/-
  The mathematics both programs are compared through, over the extended reals.

  A three-layer perceptron head on 256 rows: the first layer contracts a row of `x` (43808 entries) with the first
  43808 rows of the padded weight matrix `w1` (49152 rows, the rows past 43808 never meeting a non-zero factor), adds
  the bias row, and applies the leaky rectifier `v ↦ v` for `0 ≤ v`, `c · v` otherwise (`c` the f32 nearest 1/100, the
  same word in both programs); the second and third layers are the plain 64 → 32 and 32 → 6 affine maps, the second
  followed by the same rectifier.

  Both programs compute the first layer's contraction tile by tile: one in eleven tiles of 4096 columns, the last
  tile's columns past 2848 replaced by zero; the other in two halves of three tiles of 8192 columns of `x` padded
  with zeros to 49152 columns. On the extended reals `0 · w = 0` for every `w` and addition is commutative and
  associative with unit `0`, so each is the contraction over the 43808 real columns (`sum_tiles`, `sum_pad`).
-/
import Idealize.ShloMosaic.PureOps.Ideal
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- A matrix of extended reals of literal extents. -/
abbrev Mat (a b : Nat) : Type := (⟨2, ![a, b]⟩ : Shape).Idx → Ideal .f32

/-- The leaky rectifier as both programs spell it: a select on `v ≥ 0` between `v` and `c · v`. -/
def lrelu (v : Ideal .f32) : Ideal .f32 :=
  Scalar.select (FloatOps.cmpf (F := Ideal) .oge v (Scalar.ofBits (F := Ideal) .f32 0x00000000#32)) v
    (Scalar.ofBits (F := Ideal) .f32 0x3C23D70A#32 * v)

/-- The layers after the first contraction, on one row: `s` is that row's 64 contraction sums. -/
def head (b1 : Mat 1 64) (w2 : Mat 64 32) (b2 : Mat 1 32) (w3 : Mat 32 6) (b3 : Mat 1 6)
    (s : Fin 64 → Ideal .f32) (q : Fin 6) : Ideal .f32 :=
  (∑ k : Fin 32, lrelu ((∑ l : Fin 64, lrelu (s l + b1 (ix2 0 l)) * w2 (ix2 l k)) + b2 (ix2 0 k)) * w3 (ix2 k q))
    + b3 (ix2 0 q)

/-- Row `k` of the padded weight matrix, for a column index of `x`. -/
abbrev wrow (k : Fin 43808) : Fin 49152 := ⟨k.val, by have := k.isLt; omega⟩

/-- The first layer's contraction: row `r` of `x` against column `j` of `w1`'s first 43808 rows. -/
def fc1 (x : Mat 256 43808) (w1 : Mat 49152 64) (r : Fin 256) (j : Fin 64) : Ideal .f32 :=
  ∑ k : Fin 43808, x (ix2 r k) * w1 (ix2 (wrow k) j)

/-- The whole result, index by index. -/
def G (x : Mat 256 43808) (w1 : Mat 49152 64) (b1 : Mat 1 64) (w2 : Mat 64 32) (b2 : Mat 1 32) (w3 : Mat 32 6)
    (b3 : Mat 1 6) : Mat 256 6 :=
  fun i => head b1 w2 b2 w3 b3 (fc1 x w1 (i 0)) (i 1)

/-- `x` at row `r` and a column index below 49152: the entry inside the array, zero past its last column. -/
def xpad (x : Mat 256 43808) (r : Fin 256) (k : ℕ) : Ideal .f32 :=
  if h : k < 43808 then x (ix2 r ⟨k, h⟩) else 0

/-- One term of the contraction at a natural-number column index: the zero-padded entry of `x` times the entry of
    `w1` in that row (zero past the last row of `w1`). -/
def term (x : Mat 256 43808) (w1 : Mat 49152 64) (r : Fin 256) (j : Fin 64) (k : ℕ) : Ideal .f32 :=
  xpad x r k * (if h : k < 49152 then w1 (ix2 ⟨k, h⟩ j) else 0)

/-- Inside the array the term is the product of the two entries. -/
theorem term_lt (x : Mat 256 43808) (w1 : Mat 49152 64) (r : Fin 256) (j : Fin 64) {k : ℕ} (h : k < 43808) :
    term x w1 r j k = x (ix2 r ⟨k, h⟩) * w1 (ix2 (wrow ⟨k, h⟩) j) := by
  unfold term xpad
  rw [dif_pos h, dif_pos (show k < 49152 by omega)]

/-- Past the last column of `x` the term is `0 · w = 0`. -/
theorem term_ge (x : Mat 256 43808) (w1 : Mat 49152 64) (r : Fin 256) (j : Fin 64) {k : ℕ} (h : 43808 ≤ k) :
    term x w1 r j k = 0 := by
  unfold term xpad
  rw [dif_neg (show ¬ k < 43808 by omega), zero_mul]

/-- A sum over `n + b` indices is the sum over the first `n` plus the sum over the last `b`. -/
theorem sum_fin_add (n b : ℕ) (f : ℕ → Ideal .f32) :
    ∑ k : Fin (n + b), f k.val = ∑ k : Fin n, f k.val + ∑ k : Fin b, f (n + k.val) := by
  rw [Fin.sum_univ_add]
  rfl

/-- A sum whose terms vanish from `m` on is the sum over the first `m` indices. -/
theorem sum_fin_le {m n : ℕ} (h : m ≤ n) (f : ℕ → Ideal .f32) (hz : ∀ k, m ≤ k → f k = 0) :
    ∑ k : Fin n, f k.val = ∑ k : Fin m, f k.val := by
  obtain ⟨b, rfl⟩ := Nat.exists_eq_add_of_le h
  have htail : ∑ k : Fin b, f (m + k.val) = 0 :=
    Finset.sum_eq_zero (fun k _ => hz (m + k.val) (Nat.le_add_right m k.val))
  rw [sum_fin_add, htail, add_zero]

/-- The first layer's contraction as the sum of the terms over the 43808 real columns. -/
theorem fc1_eq (x : Mat 256 43808) (w1 : Mat 49152 64) (r : Fin 256) (j : Fin 64) :
    fc1 x w1 r j = ∑ k : Fin 43808, term x w1 r j k.val :=
  Finset.sum_congr rfl (fun k _ => (term_lt x w1 r j k.isLt).symm)

/-- The sum of the terms over any extent that covers the 43808 real columns is the first layer's contraction. -/
theorem sum_term_of_le (x : Mat 256 43808) (w1 : Mat 49152 64) (r : Fin 256) (j : Fin 64) {n : ℕ} (h : 43808 ≤ n) :
    ∑ k : Fin n, term x w1 r j k.val = fc1 x w1 r j := by
  rw [fc1_eq, sum_fin_le h (term x w1 r j) (fun k hk => term_ge x w1 r j hk)]

/-- The contraction over all 49152 rows of `w1` against the zero-padded row of `x` is the contraction over the
    43808 real columns: the padding's terms are `0 · w = 0`. -/
theorem sum_pad (x : Mat 256 43808) (w1 : Mat 49152 64) (r : Fin 256) (j : Fin 64) :
    ∑ k : Fin 49152, xpad x r k.val * w1 (ix2 k j) = fc1 x w1 r j := by
  rw [← sum_term_of_le x w1 r j (show 43808 ≤ 49152 by omega)]
  refine Finset.sum_congr rfl (fun k _ => ?_)
  unfold term
  rw [dif_pos k.isLt]

/-- The contraction of the zero-padded row `r` with column `j` of `w1` over the 24576 columns of half `s`. -/
def halfSum (x : Mat 256 43808) (w1 : Mat 49152 64) (s : Fin 2) (r : Fin 256) (j : Fin 64) : Ideal .f32 :=
  ∑ k : Fin 24576, xpad x r (s.val * 24576 + k.val)
    * w1 (ix2 ⟨s.val * 24576 + k.val, by have := s.isLt; have := k.isLt; omega⟩ j)

/-- The contraction over the first `n` columns (`n ≤ 43808`) of row `r` against column `j`: the accumulator's value after
    the tiles that cover them. -/
def prefixSum (x : Mat 256 43808) (w1 : Mat 49152 64) (n : ℕ) (r : Fin 256) (j : Fin 64) : Ideal .f32 :=
  ∑ k : Fin n, xpad x r k.val * (if h : k.val < 49152 then w1 (ix2 ⟨k.val, h⟩ j) else 0)

/-- A sum over `n · b` indices is the sum over `n` tiles of the sums over each tile's `b` indices. -/
theorem sum_tiles (n b : ℕ) (f : ℕ → Ideal .f32) :
    ∑ t : Fin n, ∑ k : Fin b, f (t.val * b + k.val) = ∑ k : Fin (n * b), f k.val := by
  rw [← Fintype.sum_prod_type' (f := fun (t : Fin n) (k : Fin b) => f (t.val * b + k.val))]
  refine Fintype.sum_equiv finProdFinEquiv _ _ ?_
  rintro ⟨t, k⟩
  rw [finProdFinEquiv_apply_val, Nat.add_comm, Nat.mul_comm]

/-- The two halves' contractions make the full one. -/
theorem halves_eq_fc1 (x : Mat 256 43808) (w1 : Mat 49152 64) (r : Fin 256) (j : Fin 64) :
    halfSum x w1 0 r j + halfSum x w1 1 r j = fc1 x w1 r j := by
  have hs : ∀ s : Fin 2, halfSum x w1 s r j = ∑ k : Fin 24576, term x w1 r j (s.val * 24576 + k.val) := by
    intro s
    refine Finset.sum_congr rfl (fun k _ => ?_)
    unfold term
    rw [dif_pos (show s.val * 24576 + k.val < 49152 by have := s.isLt; have := k.isLt; omega)]
  rw [← Fin.sum_univ_two (fun s : Fin 2 => halfSum x w1 s r j)]
  simp only [hs]
  rw [sum_tiles 2 24576 (term x w1 r j)]
  exact sum_term_of_le x w1 r j (by omega)

/-- The empty prefix contracts to zero. -/
theorem prefixSum_zero (x : Mat 256 43808) (w1 : Mat 49152 64) (r : Fin 256) (j : Fin 64) :
    prefixSum x w1 0 r j = 0 := by
  unfold prefixSum
  exact Fin.sum_univ_zero _

/-- One more tile of `b` columns: the prefix over `n + b` columns is the prefix over `n` plus the tile's `b` terms. -/
theorem prefixSum_add (x : Mat 256 43808) (w1 : Mat 49152 64) (n b : ℕ) (r : Fin 256) (j : Fin 64) :
    prefixSum x w1 (n + b) r j
      = prefixSum x w1 n r j
        + ∑ k : Fin b, xpad x r (n + k.val) * (if h : n + k.val < 49152 then w1 (ix2 ⟨n + k.val, h⟩ j) else 0) := by
  exact sum_fin_add n b (term x w1 r j)

/-- The prefix over eleven tiles of 4096 columns (45056 ≥ 43808: the last tile's columns past the array are zero) is the
    full contraction. -/
theorem prefixSum_full (x : Mat 256 43808) (w1 : Mat 49152 64) (r : Fin 256) (j : Fin 64) :
    prefixSum x w1 45056 r j = fc1 x w1 r j := by
  exact sum_term_of_le x w1 r j (by omega)

end Cert.Spec

end
-- ==== Proof.KIHead.lean ====
/-
  The tail's payload at an index, at the extended reals: the specification's `head` of the row's contraction sums.

  At row `p` of the block the payload adds to the accumulator's entry the product of the masked tile (the buffer's
  entry where the column number is below 2848, zero elsewhere) with `w1`'s tile, then the bias row, the leaky
  rectifier, the 64 → 32 affine layer, the rectifier, and the 32 → 6 affine layer — `Cert.Spec.head` word for word.
-/
import proofs.«100141_g2000406171838923_pallasbulk_1035_2_alg».proof.Proof.Spec
import proofs.«100141_g2000406171838923_pallasbulk_1035_2_alg».proof.Proof.Gen.KernelIdeal.Skeleton
import proofs.«100141_g2000406171838923_pallasbulk_1035_2_alg».proof.Proof.KIMask
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

open scoped BigOperators

namespace Cert.KernelIdeal.KValue

open Cert.KernelIdeal Cert.KernelIdeal.Gen

namespace Head

/-- The operand indices of the 128×4096 by 4096×64 product at result index `i` and contraction index `q`, axis by axis. -/
theorem lhs_fc1_0 (i : S128x64.Idx) (q : dot_S128x4096_S4096x64_S128x64_1_0_0_1_n_n.contr.Idx) :
    (dot_S128x4096_S4096x64_S128x64_1_0_0_1_n_n.lhsIdx i q 0).val = (i 0).val := by
  unfold DotDims.lhsIdx
  rw [dif_neg (show ¬(0 : Fin S128x4096.rank) ∈ dot_S128x4096_S4096x64_S128x64_1_0_0_1_n_n.lhsBatch by decide),
    dif_pos (show (0 : Fin S128x4096.rank) ∈ dot_S128x4096_S4096x64_S128x64_1_0_0_1_n_n.lhsNonContracting by decide)]
  rfl
theorem lhs_fc1_1 (i : S128x64.Idx) (q : dot_S128x4096_S4096x64_S128x64_1_0_0_1_n_n.contr.Idx) :
    (dot_S128x4096_S4096x64_S128x64_1_0_0_1_n_n.lhsIdx i q 1).val = (q ⟨0, by decide⟩).val :=
  dot_S128x4096_S4096x64_S128x64_1_0_0_1_n_n.lhsIdx_val_of_single rfl i q
theorem rhs_fc1_0 (i : S128x64.Idx) (q : dot_S128x4096_S4096x64_S128x64_1_0_0_1_n_n.contr.Idx) :
    (dot_S128x4096_S4096x64_S128x64_1_0_0_1_n_n.rhsIdx i q 0).val = (q ⟨0, by decide⟩).val :=
  dot_S128x4096_S4096x64_S128x64_1_0_0_1_n_n.rhsIdx_val_of_single rfl i q
theorem rhs_fc1_1 (i : S128x64.Idx) (q : dot_S128x4096_S4096x64_S128x64_1_0_0_1_n_n.contr.Idx) :
    (dot_S128x4096_S4096x64_S128x64_1_0_0_1_n_n.rhsIdx i q 1).val = (i 1).val := by
  unfold DotDims.rhsIdx
  rw [dif_neg (show ¬(1 : Fin S4096x64.rank) ∈ dot_S128x4096_S4096x64_S128x64_1_0_0_1_n_n.rhsBatch by decide),
    dif_pos (show (1 : Fin S4096x64.rank) ∈ dot_S128x4096_S4096x64_S128x64_1_0_0_1_n_n.rhsNonContracting by decide)]
  rfl

/-- The 128×4096 by 4096×64 product into zero, at `(p, k)`: row `p` of the left operand against column `k` of the right. -/
theorem fc1_apply (A : FVec Ideal S128x4096 .f32) (B : FVec Ideal S4096x64 .f32) (p : Fin 128) (k : Fin 64) :
    matmul dot_S128x4096_S4096x64_S128x64_1_0_0_1_n_n none A B (constant (F := Ideal) S128x64 .f32 0x00000000#32) (ix2 p k)
      = ∑ l : Fin 4096, A (ix2 p l) * B (ix2 l k) := by
  refine (Ideal.matmul_constant_zero_apply dot_S128x4096_S4096x64_S128x64_1_0_0_1_n_n none A B (ix2 p k)).trans ?_
  rw [← Equiv.sum_comp (contrEquiv1 dot_S128x4096_S4096x64_S128x64_1_0_0_1_n_n 4096 rfl rfl).symm]
  refine Finset.sum_congr rfl fun l _ => ?_
  have hk := contrEquiv1_symm_val dot_S128x4096_S4096x64_S128x64_1_0_0_1_n_n 4096 rfl rfl l
  have el : dot_S128x4096_S4096x64_S128x64_1_0_0_1_n_n.lhsIdx (ix2 p k) ((contrEquiv1 dot_S128x4096_S4096x64_S128x64_1_0_0_1_n_n 4096 rfl rfl).symm l) = ix2 p l :=
    funext fun a => Fin.ext (by
      match a with
      | ⟨0, _⟩ => exact lhs_fc1_0 _ _
      | ⟨1, _⟩ => exact (lhs_fc1_1 _ _).trans hk)
  have er : dot_S128x4096_S4096x64_S128x64_1_0_0_1_n_n.rhsIdx (ix2 p k) ((contrEquiv1 dot_S128x4096_S4096x64_S128x64_1_0_0_1_n_n 4096 rfl rfl).symm l) = ix2 l k :=
    funext fun a => Fin.ext (by
      match a with
      | ⟨0, _⟩ => exact (rhs_fc1_0 _ _).trans hk
      | ⟨1, _⟩ => exact rhs_fc1_1 _ _)
  rw [el, er]

/-- The operand indices of the 128×64 by 64×32 product at result index `i` and contraction index `q`, axis by axis. -/
theorem lhs_fc2_0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch by decide),
    dif_pos (show (0 : Fin S128x64.rank) ∈ dot_S128x64_S64x32_S128x32_1_0_0_1_n_n.lhsNonContracting by decide)]
  rfl
theorem lhs_fc2_1 (i : S128x32.Idx) (q : dot_S128x64_S64x32_S128x32_1_0_0_1_n_n.contr.Idx) :
    (dot_S128x64_S64x32_S128x32_1_0_0_1_n_n.lhsIdx i q 1).val = (q ⟨0, by decide⟩).val :=
  dot_S128x64_S64x32_S128x32_1_0_0_1_n_n.lhsIdx_val_of_single rfl i q
theorem rhs_fc2_0 (i : S128x32.Idx) (q : dot_S128x64_S64x32_S128x32_1_0_0_1_n_n.contr.Idx) :
    (dot_S128x64_S64x32_S128x32_1_0_0_1_n_n.rhsIdx i q 0).val = (q ⟨0, by decide⟩).val :=
  dot_S128x64_S64x32_S128x32_1_0_0_1_n_n.rhsIdx_val_of_single rfl i q
theorem rhs_fc2_1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch by decide),
    dif_pos (show (1 : Fin S64x32.rank) ∈ dot_S128x64_S64x32_S128x32_1_0_0_1_n_n.rhsNonContracting by decide)]
  rfl

/-- The 128×64 by 64×32 product into zero, at `(p, k)`: row `p` of the left operand against column `k` of the right. -/
theorem fc2_apply (A : FVec Ideal S128x64 .f32) (B : FVec Ideal S64x32 .f32) (p : Fin 128) (k : Fin 32) :
    matmul dot_S128x64_S64x32_S128x32_1_0_0_1_n_n none A B (constant (F := Ideal) S128x32 .f32 0x00000000#32) (ix2 p k)
      = ∑ l : Fin 64, A (ix2 p l) * B (ix2 l k) := by
  refine (Ideal.matmul_constant_zero_apply dot_S128x64_S64x32_S128x32_1_0_0_1_n_n none A B (ix2 p k)).trans ?_
  rw [← Equiv.sum_comp (contrEquiv1 dot_S128x64_S64x32_S128x32_1_0_0_1_n_n 64 rfl rfl).symm]
  refine Finset.sum_congr rfl fun l _ => ?_
  have hk := contrEquiv1_symm_val dot_S128x64_S64x32_S128x32_1_0_0_1_n_n 64 rfl rfl l
  have el : dot_S128x64_S64x32_S128x32_1_0_0_1_n_n.lhsIdx (ix2 p k) ((contrEquiv1 dot_S128x64_S64x32_S128x32_1_0_0_1_n_n 64 rfl rfl).symm l) = ix2 p l :=
    funext fun a => Fin.ext (by
      match a with
      | ⟨0, _⟩ => exact lhs_fc2_0 _ _
      | ⟨1, _⟩ => exact (lhs_fc2_1 _ _).trans hk)
  have er : dot_S128x64_S64x32_S128x32_1_0_0_1_n_n.rhsIdx (ix2 p k) ((contrEquiv1 dot_S128x64_S64x32_S128x32_1_0_0_1_n_n 64 rfl rfl).symm l) = ix2 l k :=
    funext fun a => Fin.ext (by
      match a with
      | ⟨0, _⟩ => exact (rhs_fc2_0 _ _).trans hk
      | ⟨1, _⟩ => exact rhs_fc2_1 _ _)
  rw [el, er]

/-- The operand indices of the 128×32 by 32×6 product at result index `i` and contraction index `q`, axis by axis. -/
theorem lhs_fc3_0 (i : S128x6.Idx) (q : dot_S128x32_S32x6_S128x6_1_0_0_1_n_n.contr.Idx) :
    (dot_S128x32_S32x6_S128x6_1_0_0_1_n_n.lhsIdx i q 0).val = (i 0).val := by
  unfold DotDims.lhsIdx
  rw [dif_neg (show ¬(0 : Fin S128x32.rank) ∈ dot_S128x32_S32x6_S128x6_1_0_0_1_n_n.lhsBatch by decide),
    dif_pos (show (0 : Fin S128x32.rank) ∈ dot_S128x32_S32x6_S128x6_1_0_0_1_n_n.lhsNonContracting by decide)]
  rfl
theorem lhs_fc3_1 (i : S128x6.Idx) (q : dot_S128x32_S32x6_S128x6_1_0_0_1_n_n.contr.Idx) :
    (dot_S128x32_S32x6_S128x6_1_0_0_1_n_n.lhsIdx i q 1).val = (q ⟨0, by decide⟩).val :=
  dot_S128x32_S32x6_S128x6_1_0_0_1_n_n.lhsIdx_val_of_single rfl i q
theorem rhs_fc3_0 (i : S128x6.Idx) (q : dot_S128x32_S32x6_S128x6_1_0_0_1_n_n.contr.Idx) :
    (dot_S128x32_S32x6_S128x6_1_0_0_1_n_n.rhsIdx i q 0).val = (q ⟨0, by decide⟩).val :=
  dot_S128x32_S32x6_S128x6_1_0_0_1_n_n.rhsIdx_val_of_single rfl i q
theorem rhs_fc3_1 (i : S128x6.Idx) (q : dot_S128x32_S32x6_S128x6_1_0_0_1_n_n.contr.Idx) :
    (dot_S128x32_S32x6_S128x6_1_0_0_1_n_n.rhsIdx i q 1).val = (i 1).val := by
  unfold DotDims.rhsIdx
  rw [dif_neg (show ¬(1 : Fin S32x6.rank) ∈ dot_S128x32_S32x6_S128x6_1_0_0_1_n_n.rhsBatch by decide),
    dif_pos (show (1 : Fin S32x6.rank) ∈ dot_S128x32_S32x6_S128x6_1_0_0_1_n_n.rhsNonContracting by decide)]
  rfl

/-- The 128×32 by 32×6 product into zero, at `(p, k)`: row `p` of the left operand against column `k` of the right. -/
theorem fc3_apply (A : FVec Ideal S128x32 .f32) (B : FVec Ideal S32x6 .f32) (p : Fin 128) (k : Fin 6) :
    matmul dot_S128x32_S32x6_S128x6_1_0_0_1_n_n none A B (constant (F := Ideal) S128x6 .f32 0x00000000#32) (ix2 p k)
      = ∑ l : Fin 32, A (ix2 p l) * B (ix2 l k) := by
  refine (Ideal.matmul_constant_zero_apply dot_S128x32_S32x6_S128x6_1_0_0_1_n_n none A B (ix2 p k)).trans ?_
  rw [← Equiv.sum_comp (contrEquiv1 dot_S128x32_S32x6_S128x6_1_0_0_1_n_n 32 rfl rfl).symm]
  refine Finset.sum_congr rfl fun l _ => ?_
  have hk := contrEquiv1_symm_val dot_S128x32_S32x6_S128x6_1_0_0_1_n_n 32 rfl rfl l
  have el : dot_S128x32_S32x6_S128x6_1_0_0_1_n_n.lhsIdx (ix2 p k) ((contrEquiv1 dot_S128x32_S32x6_S128x6_1_0_0_1_n_n 32 rfl rfl).symm l) = ix2 p l :=
    funext fun a => Fin.ext (by
      match a with
      | ⟨0, _⟩ => exact lhs_fc3_0 _ _
      | ⟨1, _⟩ => exact (lhs_fc3_1 _ _).trans hk)
  have er : dot_S128x32_S32x6_S128x6_1_0_0_1_n_n.rhsIdx (ix2 p k) ((contrEquiv1 dot_S128x32_S32x6_S128x6_1_0_0_1_n_n 32 rfl rfl).symm l) = ix2 l k :=
    funext fun a => Fin.ext (by
      match a with
      | ⟨0, _⟩ => exact (rhs_fc3_0 _ _).trans hk
      | ⟨1, _⟩ => exact rhs_fc3_1 _ _)
  rw [el, er]

/-- The masked tile at `(p, k)`: the buffer's entry where the column number is below 2848, zero from there on. -/
theorem masked_apply (x0 : Vec Ideal S128x4096 .f32) (p : Fin 128) (k : Fin 4096) :
    select (cmpi .slt (iota .tc S128x4096 32 [1] iota_S128x4096_d1_w32) (broadcast S128x4096 2848#32)) x0
        (broadcast S128x4096 (Scalar.ofBits (F := Ideal) .f32 0x00000000#32)) (ix2 p k)
      = if k.val < 2848 then x0 (ix2 p k) else 0 := by
  show Scalar.select (cmpi .slt (iota .tc S128x4096 32 [1] iota_S128x4096_d1_w32) (broadcast S128x4096 2848#32) (ix2 p k))
      (x0 (ix2 p k)) (Scalar.ofBits (F := Ideal) .f32 0x00000000#32) = _
  unfold Scalar.select
  by_cases h : k.val < 2848
  · have hm : cmpi .slt (iota .tc S128x4096 32 [1] iota_S128x4096_d1_w32) (broadcast S128x4096 2848#32) (ix2 p k) = 1 :=
      (Cert.KernelIdeal.Hand.mask_iff (ix2 p k)).mpr h
    rw [if_pos hm, if_pos h]
  · have hm : ¬ cmpi .slt (iota .tc S128x4096 32 [1] iota_S128x4096_d1_w32) (broadcast S128x4096 2848#32) (ix2 p k) = 1 :=
      fun e => h ((Cert.KernelIdeal.Hand.mask_iff (ix2 p k)).mp e)
    rw [if_neg hm, if_neg h]
    exact Ideal.ofBits_zero_f32

end Head

/-- The tail's payload at `(p, q)`. -/
theorem pay3_apply (x0 : Vec Ideal S128x4096 .f32) (xs : Vec Ideal S128x64 .f32) (x1 : Vec Ideal S4096x64 .f32)
    (x2 : Vec Ideal S1x64 .f32) (x3 : Vec Ideal S64x32 .f32) (x4 : Vec Ideal S1x32 .f32) (x5 : Vec Ideal S32x6 .f32)
    (x6 : Vec Ideal S1x6 .f32) (p : Fin 128) (q : Fin 6) :
    k0_pay3 (F := Ideal) x0 xs x1 x2 x3 x4 x5 x6 (ix2 p q)
      = Cert.Spec.head x2 x3 x4 x5 x6
          (fun j => xs (ix2 p j) + ∑ k : Fin 4096, (if k.val < 2848 then x0 (ix2 p k) else 0) * x1 (ix2 k j)) q := by
  unfold k0_pay3 Cert.Spec.head Cert.Spec.lrelu
  simp only [addf_apply, Head.fc3_apply, select_apply, cmpf_apply, mulf_apply, broadcast_apply, Head.fc2_apply,
    Head.fc1_apply, broadcastTo_1b_ab_apply]
  have e : ∀ k : Fin 4096,
      Scalar.select (cmpi .slt (iota .tc S128x4096 32 [1] iota_S128x4096_d1_w32) (broadcast S128x4096 2848#32) (ix2 p k))
          (x0 (ix2 p k)) (Scalar.ofBits (F := Ideal) .f32 0x00000000#32)
        = if k.val < 2848 then x0 (ix2 p k) else 0 := fun k => Head.masked_apply x0 p k
  simp only [e]

/-- The accumulation's payload at `(p, j)`: the accumulator's entry plus the tile's product. -/
theorem pay2_apply (xs : Vec Ideal S128x64 .f32) (x0 : Vec Ideal S128x4096 .f32) (x1 : Vec Ideal S4096x64 .f32)
    (p : Fin 128) (j : Fin 64) :
    k0_pay2 (F := Ideal) xs x0 x1 (ix2 p j) = xs (ix2 p j) + ∑ k : Fin 4096, x0 (ix2 p k) * x1 (ix2 k j) := by
  unfold k0_pay2
  simp only [shapeCast_self, addf_apply, Head.fc1_apply]

/-- The reset's payload is the zero block. -/
theorem pay1_apply (p : Fin 128) (j : Fin 64) : k0_pay1 (F := Ideal) (ix2 p j) = 0 := by
  unfold k0_pay1
  simp only [shapeCast_self, broadcast_apply]
  exact Ideal.ofBits_zero_f32

end Cert.KernelIdeal.KValue

end
-- ==== Proof.KIValue.lean ====
/-
  The fused kernel's result array, at the extended reals, is the specification `Cert.Spec.G` of its arguments.

  Row block `b` (128 rows) is written back once, after its tile-10 point `11 b + 10`; what is written is the head of
  "the accumulator after tile 9, plus the masked last tile's product". The accumulator after tile `k ≤ 9` of row
  block `b` is the contraction over the first `4096 (k + 1)` columns (induction on the tile, `acc_closed`), the
  masked last tile adds the columns 40960‥43807 and zeros, so the head is taken of the full contraction `fc1`.

  The steps: the index maps and the last tile's cut, decided over the 22 grid points; each block at an index as an
  entry of its argument array (row `128 (t / 11) + p`, column or row `4096 (t % 11) + kk`; the five small arrays are
  their own one block); one tile's 4096 terms extend the prefix sum by 4096 columns (`tile_sum`); the accumulator's
  closed form; the tail's row of sums is the full contraction, so its head is the specification's row; and every row
  of the result lies in the block of exactly the tile-10 point of its row block.
-/
import proofs.«100141_g2000406171838923_pallasbulk_1035_2_alg».proof.Proof.Spec
import proofs.«100141_g2000406171838923_pallasbulk_1035_2_alg».proof.Proof.KIDefs
import proofs.«100141_g2000406171838923_pallasbulk_1035_2_alg».proof.Proof.KIHead
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.KValue

open Cert.KernelIdeal Cert.KernelIdeal.Gen Cert.KernelIdeal.Hand

variable (m : (ℓ : Loc nD τ sig) → Buf (Elt Ideal) ℓ) (ρ : Dev nD → PrngReg)

/-- The specification at this program's argument arrays. -/
abbrev spec (c : Dev nD) : Buf (Elt Ideal) ((c : Thread nD τ).loc main_v0) :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The grid, decided once -/

/-- The printed index maps over the grid: point `t` is row block `t / 11`, tile `t % 11`; the small arrays' one block
    is the whole array. -/
theorem idx_facts : ∀ t : Fin cfg0.N,
    win0_0.index t (0 : Fin 2) = t.val / 11 ∧ win0_0.index t (1 : Fin 2) = t.val % 11
    ∧ win0_1.index t (0 : Fin 2) = t.val % 11 ∧ win0_1.index t (1 : Fin 2) = 0
    ∧ win0_7.index t (0 : Fin 2) = t.val / 11 ∧ win0_7.index t (1 : Fin 2) = 0 :=
  (by decide +kernel : ∀ t : Fin grid0.N, _)

theorem idx_small : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- What the fetch of `x`'s block moves: all 128 rows; all 4096 columns at tiles 0‥9, the first 2848 at tile 10. -/
theorem xsize_facts : ∀ t : Fin cfg0.N,
    win0_0.xsize (grid0.coords t) (0 : Fin 2) = 128
    ∧ win0_0.xsize (grid0.coords t) (1 : Fin 2) = (if t.val % 11 = 10 then 2848 else 4096) :=
  (by decide +kernel : ∀ t : Fin grid0.N, _)

/-! ## The blocks at an index, in terms of the argument arrays -/

/-- `w1`'s block at point `t`, at an index: row `4096 (t % 11) + kk` of the array. -/
theorem w1blk_apply (c : Dev nD) (t : Fin cfg0.N) (kk : Fin 4096) (j : Fin 64) (r : Fin 49152)
    (hr : r.val = 4096 * (t.val % 11) + kk.val) :
    (iblk m c 1 t : Vec Ideal S4096x64 .f32) (ix2 kk j) = m ((c : Thread nD τ).loc main_arg1) (ix2 r j) := by
  obtain ⟨-, -, e0, e1, -, -⟩ := idx_facts t
  unfold iblk
  rw [View.read_apply]
  show V m c main_arg1 _ = m (c.tc.loc main_arg1) _
  unfold V
  congr 1
  funext a
  apply Fin.ext
  match a with
  | ⟨0, _⟩ => show win0_1.index t 0 * 4096 + 1 * kk.val = r.val; rw [e0]; omega
  | ⟨1, _⟩ => show win0_1.index t 1 * 64 + 1 * j.val = j.val; rw [e1]; omega

/-- `x`'s buffer at point `t`, at a column the fetch moves: row `128 (t / 11) + p`, column `4096 (t % 11) + kk` of the
    array. -/
theorem xfull_apply (c : Dev nD) (t : Fin cfg0.N) (p : Fin 128) (kk : Fin 4096) (row : Fin 256) (col : Fin 43808)
    (hrow : row.val = 128 * (t.val / 11) + p.val) (hcol : col.val = 4096 * (t.val % 11) + kk.val) :
    xfull m c t (ix2 p kk) = m ((c : Thread nD τ).loc main_arg0) (ix2 row col) := by
  obtain ⟨e0, e1, -, -, -, -⟩ := idx_facts t
  obtain ⟨x0, x1⟩ := xsize_facts t
  have hmv : win0_0.moved (grid0.coords t) (ix2 p kk) = true := (win0_0.moved_iff _ _).mpr fun a => by
    match a with
    | ⟨0, _⟩ => show p.val < win0_0.xsize (grid0.coords t) 0; rw [x0]; exact p.isLt
    | ⟨1, _⟩ =>
      show kk.val < win0_0.xsize (grid0.coords t) 1
      rw [x1]; have := col.isLt; have := kk.isLt; split <;> omega
  refine (dif_pos hmv).trans ?_
  unfold xraw
  rw [View.read_apply]
  show V m c main_arg0 _ = m (c.tc.loc main_arg0) _
  unfold V
  congr 1
  funext a
  apply Fin.ext
  match a with
  | ⟨0, _⟩ => show win0_0.index t 0 * 128 + 1 * p.val = row.val; rw [e0]; omega
  | ⟨1, _⟩ => show win0_0.index t 1 * 4096 + 1 * kk.val = col.val; rw [e1]; omega

/-- Window 2's one block is its whole array. -/
theorem blk2_eq (c : Dev nD) (t : Fin cfg0.N) :
    (iblk m c 2 t : Vec Ideal S1x64 .f32) = m ((c : Thread nD τ).loc main_arg2) := by
  have e := (idx_small t).1
  funext y
  unfold iblk
  rw [View.read_apply]
  show V m c main_arg2 _ = m (c.tc.loc main_arg2) _
  unfold V
  congr 1
  funext ax
  apply Fin.ext
  match ax with
  | ⟨0, _⟩ => show win0_2.index t 0 * 1 + 1 * (y 0).val = (y 0).val; rw [e.1]; omega
  | ⟨1, _⟩ => show win0_2.index t 1 * 64 + 1 * (y 1).val = (y 1).val; rw [e.2]; omega

/-- Window 3's one block is its whole array. -/
theorem blk3_eq (c : Dev nD) (t : Fin cfg0.N) :
    (iblk m c 3 t : Vec Ideal S64x32 .f32) = m ((c : Thread nD τ).loc main_arg3) := by
  have e := (idx_small t).2.1
  funext y
  unfold iblk
  rw [View.read_apply]
  show V m c main_arg3 _ = m (c.tc.loc main_arg3) _
  unfold V
  congr 1
  funext ax
  apply Fin.ext
  match ax with
  | ⟨0, _⟩ => show win0_3.index t 0 * 64 + 1 * (y 0).val = (y 0).val; rw [e.1]; omega
  | ⟨1, _⟩ => show win0_3.index t 1 * 32 + 1 * (y 1).val = (y 1).val; rw [e.2]; omega

/-- Window 4's one block is its whole array. -/
theorem blk4_eq (c : Dev nD) (t : Fin cfg0.N) :
    (iblk m c 4 t : Vec Ideal S1x32 .f32) = m ((c : Thread nD τ).loc main_arg4) := by
  have e := (idx_small t).2.2.1
  funext y
  unfold iblk
  rw [View.read_apply]
  show V m c main_arg4 _ = m (c.tc.loc main_arg4) _
  unfold V
  congr 1
  funext ax
  apply Fin.ext
  match ax with
  | ⟨0, _⟩ => show win0_4.index t 0 * 1 + 1 * (y 0).val = (y 0).val; rw [e.1]; omega
  | ⟨1, _⟩ => show win0_4.index t 1 * 32 + 1 * (y 1).val = (y 1).val; rw [e.2]; omega

/-- Window 5's one block is its whole array. -/
theorem blk5_eq (c : Dev nD) (t : Fin cfg0.N) :
    (iblk m c 5 t : Vec Ideal S32x6 .f32) = m ((c : Thread nD τ).loc main_arg5) := by
  have e := (idx_small t).2.2.2.1
  funext y
  unfold iblk
  rw [View.read_apply]
  show V m c main_arg5 _ = m (c.tc.loc main_arg5) _
  unfold V
  congr 1
  funext ax
  apply Fin.ext
  match ax with
  | ⟨0, _⟩ => show win0_5.index t 0 * 32 + 1 * (y 0).val = (y 0).val; rw [e.1]; omega
  | ⟨1, _⟩ => show win0_5.index t 1 * 6 + 1 * (y 1).val = (y 1).val; rw [e.2]; omega

/-- Window 6's one block is its whole array. -/
theorem blk6_eq (c : Dev nD) (t : Fin cfg0.N) :
    (iblk m c 6 t : Vec Ideal S1x6 .f32) = m ((c : Thread nD τ).loc main_arg6) := by
  have e := (idx_small t).2.2.2.2
  funext y
  unfold iblk
  rw [View.read_apply]
  show V m c main_arg6 _ = m (c.tc.loc main_arg6) _
  unfold V
  congr 1
  funext ax
  apply Fin.ext
  match ax with
  | ⟨0, _⟩ => show win0_6.index t 0 * 1 + 1 * (y 0).val = (y 0).val; rw [e.1]; omega
  | ⟨1, _⟩ => show win0_6.index t 1 * 6 + 1 * (y 1).val = (y 1).val; rw [e.2]; omega

/-! ## One tile's terms extend the prefix -/

/-- The prefix over `4096 k` columns plus the 4096 terms of tile `k` is the prefix over `4096 (k + 1)` columns. -/
theorem tile_sum (x : Cert.Spec.Mat 256 43808) (w1 : Cert.Spec.Mat 49152 64) (row : Fin 256) (j : Fin 64) (k : ℕ) (hk : k ≤ 10)
    (f g : Fin 4096 → Ideal .f32)
    (hf : ∀ kk : Fin 4096, f kk = Cert.Spec.xpad x row (4096 * k + kk.val))
    (hg : ∀ (kk : Fin 4096) (h : 4096 * k + kk.val < 49152), g kk = w1 (ix2 ⟨4096 * k + kk.val, h⟩ j)) :
    Cert.Spec.prefixSum x w1 (4096 * k) row j + ∑ kk : Fin 4096, f kk * g kk
      = Cert.Spec.prefixSum x w1 (4096 * (k + 1)) row j := by
  rw [show 4096 * (k + 1) = 4096 * k + 4096 by omega, Cert.Spec.prefixSum_add]
  congr 1
  refine Finset.sum_congr rfl fun kk _ => ?_
  have h : 4096 * k + kk.val < 49152 := by have := kk.isLt; omega
  rw [hf kk, dif_pos h, hg kk h]

/-- At tiles 0‥9 every column of `x`'s buffer is a column of the array. -/
theorem xfull_eq_xpad (c : Dev nD) (t : Fin cfg0.N) (ht : t.val % 11 ≠ 10) (p : Fin 128) (kk : Fin 4096) (row : Fin 256)
    (hrow : row.val = 128 * (t.val / 11) + p.val) :
    xfull m c t (ix2 p kk) = Cert.Spec.xpad (m ((c : Thread nD τ).loc main_arg0)) row (4096 * (t.val % 11) + kk.val) := by
  have hlt : 4096 * (t.val % 11) + kk.val < 43808 := by have := kk.isLt; omega
  unfold Cert.Spec.xpad
  rw [dif_pos hlt]
  exact xfull_apply m c t p kk row ⟨_, hlt⟩ hrow rfl

/-- At tile 10 the masked entry is the zero-padded row's: the array's column below 2848, zero from there on. -/
theorem masked_eq_xpad (c : Dev nD) (t : Fin cfg0.N) (ht : t.val % 11 = 10) (p : Fin 128) (kk : Fin 4096) (row : Fin 256)
    (hrow : row.val = 128 * (t.val / 11) + p.val) :
    (if kk.val < 2848 then xfull m c t (ix2 p kk) else 0)
      = Cert.Spec.xpad (m ((c : Thread nD τ).loc main_arg0)) row (4096 * 10 + kk.val) := by
  unfold Cert.Spec.xpad
  by_cases h : kk.val < 2848
  · rw [if_pos h, dif_pos (by omega)]
    exact xfull_apply m c t p kk row ⟨4096 * 10 + kk.val, by omega⟩ hrow (by rw [ht])
  · rw [if_neg h, dif_neg (by omega)]

/-- Tile `t % 11 ≤ 9` of row block `t / 11` extends the prefix by its 4096 columns. -/
theorem tile_step (c : Dev nD) (t : Fin cfg0.N) (h10 : t.val % 11 ≠ 10) (p : Fin 128) (j : Fin 64) (row : Fin 256)
    (hrow : row.val = 128 * (t.val / 11) + p.val) :
    Cert.Spec.prefixSum (m ((c : Thread nD τ).loc main_arg0)) (m ((c : Thread nD τ).loc main_arg1)) (4096 * (t.val % 11)) row j
        + ∑ kk : Fin 4096, xfull m c t (ix2 p kk) * (iblk m c 1 t : Vec Ideal S4096x64 .f32) (ix2 kk j)
      = Cert.Spec.prefixSum (m ((c : Thread nD τ).loc main_arg0)) (m ((c : Thread nD τ).loc main_arg1)) (4096 * (t.val % 11 + 1)) row j :=
  tile_sum (m ((c : Thread nD τ).loc main_arg0)) (m ((c : Thread nD τ).loc main_arg1)) row j (t.val % 11) (by omega)
    (fun kk => xfull m c t (ix2 p kk)) (fun kk => (iblk m c 1 t : Vec Ideal S4096x64 .f32) (ix2 kk j))
    (fun kk => xfull_eq_xpad m c t h10 p kk row hrow)
    (fun kk h => w1blk_apply m c t kk j ⟨_, h⟩ rfl)

/-! ## The accumulator in closed form -/

/-- After point `n` with tile `n % 11 ≤ 9` the accumulator's row `p` holds the contraction of row `128 (n / 11) + p` of `x`
    over the first `4096 (n % 11 + 1)` columns: by induction on the point, a tile 0 starting from the zero block. -/
theorem acc_closed (c : Dev nD) : ∀ (n : ℕ) (hn : n < cfg0.N), n % 11 ≠ 10 → ∀ (p : Fin 128) (j : Fin 64) (row : Fin 256),
    row.val = 128 * (n / 11) + p.val →
    accAt m c n hn (ix2 p j)
      = Cert.Spec.prefixSum (m ((c : Thread nD τ).loc main_arg0)) (m ((c : Thread nD τ).loc main_arg1)) (4096 * (n % 11 + 1)) row j := by
  intro n
  induction n with
  | zero =>
    intro hn h10 p j row hrow
    refine Eq.trans ?_ (tile_step m c ⟨0, hn⟩ h10 p j row hrow)
    refine ((congrFun (accAt_first m c ⟨0, hn⟩ rfl) (ix2 p j)).trans
      (pay2_apply (k0_pay1 (F := Ideal)) (xfull m c ⟨0, hn⟩) (iblk m c 1 ⟨0, hn⟩) p j)).trans ?_
    rw [pay1_apply]
    show 0 + _ = Cert.Spec.prefixSum _ _ (4096 * (0 % 11)) row j + _
    rw [show 4096 * (0 % 11) = 0 from rfl, Cert.Spec.prefixSum_zero]
  | succ n ih =>
    intro hn h10 p j row hrow
    refine Eq.trans ?_ (tile_step m c ⟨n + 1, hn⟩ h10 p j row hrow)
    by_cases h0 : (n + 1) % 11 = 0
    · refine ((congrFun (accAt_first m c ⟨n + 1, hn⟩ h0) (ix2 p j)).trans
        (pay2_apply (k0_pay1 (F := Ideal)) (xfull m c ⟨n + 1, hn⟩) (iblk m c 1 ⟨n + 1, hn⟩) p j)).trans ?_
      rw [pay1_apply]
      show 0 + _ = Cert.Spec.prefixSum _ _ (4096 * ((n + 1) % 11)) row j + _
      rw [h0, Nat.mul_zero, Cert.Spec.prefixSum_zero]
    · refine ((congrFun (accAt_mid m c ⟨n + 1, hn⟩ h0 h10) (ix2 p j)).trans
        (pay2_apply (accAt m c n (Nat.lt_of_succ_lt hn)) (xfull m c ⟨n + 1, hn⟩) (iblk m c 1 ⟨n + 1, hn⟩) p j)).trans ?_
      rw [ih (Nat.lt_of_succ_lt hn) (by omega) p j row (by omega)]
      show Cert.Spec.prefixSum _ _ (4096 * (n % 11 + 1)) row j + _ = Cert.Spec.prefixSum _ _ (4096 * ((n + 1) % 11)) row j + _
      rw [show n % 11 + 1 = (n + 1) % 11 by omega]

/-! ## What a tile-10 point leaves in the output's buffer -/

/-- At a tile-10 point the output's buffer at `(p, q)` is the specification at row `128 (t / 11) + p`: the accumulator
    holds the prefix over tiles 0‥9, the masked last tile adds columns 40960‥45055 of the zero-padded row, and the
    prefix over all eleven tiles is the full contraction. -/
theorem out_closed (c : Dev nD) (t : Fin cfg0.N) (h10 : t.val % 11 = 10) (p : Fin 128) (q : Fin 6) (row : Fin 256)
    (hrow : row.val = 128 * (t.val / 11) + p.val) :
    outAt m c t (ix2 p q) = spec m c (ix2 row q) := by
  have hlt : t.val - 1 < cfg0.N := Nat.lt_of_le_of_lt (Nat.sub_le _ _) t.isLt
  refine (pay3_apply (xfull m c t) (accAt m c (t.val - 1) hlt) (iblk m c 1 t) (iblk m c 2 t) (iblk m c 3 t) (iblk m c 4 t)
    (iblk m c 5 t) (iblk m c 6 t) p q).trans ?_
  rw [blk2_eq m c t, blk3_eq m c t, blk4_eq m c t, blk5_eq m c t, blk6_eq m c t]
  show Cert.Spec.head _ _ _ _ _ _ q = Cert.Spec.head _ _ _ _ _ (Cert.Spec.fc1 _ _ row) q
  refine congrArg (fun s => Cert.Spec.head (m ((c : Thread nD τ).loc main_arg2)) (m ((c : Thread nD τ).loc main_arg3))
    (m ((c : Thread nD τ).loc main_arg4)) (m ((c : Thread nD τ).loc main_arg5)) (m ((c : Thread nD τ).loc main_arg6)) s q)
    (funext fun j => ?_)
  rw [acc_closed m c (t.val - 1) hlt (by omega) p j row (by omega), ← Cert.Spec.prefixSum_full]
  rw [show 4096 * ((t.val - 1) % 11 + 1) = 4096 * 10 by omega, show 45056 = 4096 * (10 + 1) from rfl]
  exact tile_sum (m ((c : Thread nD τ).loc main_arg0)) (m ((c : Thread nD τ).loc main_arg1)) row j 10 (le_refl _)
    (fun kk => if kk.val < 2848 then xfull m c t (ix2 p kk) else 0) (fun kk => (iblk m c 1 t : Vec Ideal S4096x64 .f32) (ix2 kk j))
    (fun kk => masked_eq_xpad m c t h10 p kk row hrow)
    (fun kk h => w1blk_apply m c t kk j ⟨_, h⟩ (by rw [h10]))

/-! ## From the blocks to the array -/

/-- What a tile-10 point writes back is its block of the specification: rows `128 (t / 11)` ‥ `128 (t / 11) + 127`. -/
theorem flushed_eq (c : Dev nD) (t : Fin cfg0.N) (hf : (cfg0.win 7).flush t = true) :
    (dats (F := Ideal) m 0 c).flushed 7 t = ((cfg0.win 7).blk t).view.read (Elt Ideal) (spec m c) := by
  have h10 : t.val % 11 = 10 := (flush0_7 t).mp hf
  obtain ⟨-, -, -, -, e0, e1⟩ := idx_facts t
  show (cfg0.win 7).cut (grid0.coords t) ((dats (F := Ideal) m 0 c).after 7 t) = _
  rw [after0_7]
  funext y
  have hy0 : (y 0).val < 128 := (y 0).isLt
  have hy1 : (y 1).val < 6 := (y 1).isLt
  have hN : cfg0.N = 22 := N_0
  have htl : t.val < 22 := hN ▸ t.isLt
  have hy : (cfg0.win 7).xinj (grid0.coords t) y = ix2 (⟨(y 0).val, hy0⟩ : Fin 128) (⟨(y 1).val, hy1⟩ : Fin 6) := by
    funext a
    match a with
    | ⟨0, _⟩ => rfl
    | ⟨1, _⟩ => rfl
  refine Eq.trans (congrArg (outAt m c t) hy) ?_
  refine (out_closed m c t h10 ⟨(y 0).val, hy0⟩ ⟨(y 1).val, hy1⟩ ⟨128 * (t.val / 11) + (y 0).val, by omega⟩ rfl).trans ?_
  rw [View.read_apply]
  show spec m c _ = spec m c _
  refine congrArg (spec m c) (funext fun a => Fin.ext ?_)
  match a with
  | ⟨0, _⟩ => show 128 * (t.val / 11) + (y 0).val = win0_7.index t 0 * 128 + 1 * (y 0).val; rw [e0]; omega
  | ⟨1, _⟩ => show (y 1).val = win0_7.index t 1 * 6 + 1 * (y 1).val; rw [e1]; omega

/-- An index of the result array is in point `t`'s block iff each coordinate is in the block's range on its axis. -/
theorem mem_blk (t : Fin cfg0.N) (i : S256x6.Idx) :
    i ∈ ((cfg0.win 7).blk t).view.set ↔ ∀ a : Fin 2, win0_7.index t a * S128x6.size a ≤ (i a).val ∧ (i a).val < win0_7.index t a * S128x6.size a + S128x6.size a := by
  show i ∈ ((View.whole main_v0).slice (win0_7.rect t)).set ↔ _
  rw [View.set_slice_whole, Rect.mem_set_unit]
  exact Iff.rfl

/-- After every write-back the result array holds the specification: row `r` is written by the tile-10 point of row
    block `r / 128`. -/
theorem final_out (c : Dev nD) : (dats (F := Ideal) m 0 c).arrAt 7 cfg0.N = spec m c :=
  (dats (F := Ideal) m 0 c).arrAt_eq_of_cover 7 (spec m c) (fun t hf => flushed_eq m c t hf) fun i => by
    have hN : cfg0.N = 22 := N_0
    have hi0 : (i 0).val < 256 := (i 0).isLt
    have hi1 : (i 1).val < 6 := (i 1).isLt
    let t : Fin cfg0.N := ⟨11 * ((i 0).val / 128) + 10, by rw [hN]; omega⟩
    have ht : t.val = 11 * ((i 0).val / 128) + 10 := rfl
    obtain ⟨-, -, -, -, e0, e1⟩ := idx_facts t
    refine ⟨t, (flush0_7 t).mpr (by rw [ht]; omega), ?_⟩
    rw [mem_blk]
    intro a
    match a with
    | ⟨0, _⟩ => show win0_7.index t 0 * 128 ≤ (i 0).val ∧ (i 0).val < win0_7.index t 0 * 128 + 128; rw [e0, ht]; omega
    | ⟨1, _⟩ => show win0_7.index t 1 * 6 ≤ (i 1).val ∧ (i 1).val < win0_7.index t 1 * 6 + 6; rw [e1]; omega

end Cert.KernelIdeal.KValue

end
-- ==== Proof.RefValue0.lean ====
/-
  The reference's first region, at the extended reals: the two partial sums.

  The host pads `x` with zeros to 49152 columns (`xp_eq`). The region's grid is 2 × 3: half `s`, tile `k` of 8192
  columns; block `s` of the output (shape 1 × 256 × 64) is zeroed at tile 0 and has each tile's product added to it, and
  is written back after tile 2. So the output array `[2, 256, 64]` ends with, at `(s, r, j)`, the contraction of the
  padded row `r` with column `j` of `w1` over the 24576 columns of half `s` (`partial_eq`).

  The steps: what each of the body's two cases leaves in the output's block (zero plus the tile's product at tile 0, the
  running block plus the tile's product afterwards); that payload entry by entry (the product of a 256 × 8192 block by
  an 8192 × 64 block is, at `(r, j)`, the sum over the 8192 columns); the two input blocks at point `t` are columns
  `8192 t ..` of the padded `x` and rows `8192 t ..` of `w1`; by induction on the point, after tile `k` of half `s` the
  block holds the contraction over the tiles `0 .. k` of that half; three tiles of 8192 columns are the half's 24576
  (`Spec.sum_tiles`); the two blocks written back (after points 2 and 5) cover the output array.
-/
import proofs.«100141_g2000406171838923_pallasbulk_1035_2_alg».proof.Proof.Spec
import proofs.«100141_g2000406171838923_pallasbulk_1035_2_alg».proof.Proof.Gen.ReferenceIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.ReferenceIdeal.RefValue

open Cert.ReferenceIdeal Cert.ReferenceIdeal.Gen

variable (m : (ℓ : Loc nD τ sig) → Buf (Elt Ideal) ℓ) (ρ : Dev nD → PrngReg)

/-- The padded `x` the first region reads: `x` inside its 43808 columns, zero past them. -/
theorem xp_eq (c : Dev nD) :
    (V1 (F := Ideal) m ρ c main_call0_v0 : S256x49152.Idx → Ideal .f32)
      = fun i => Cert.Spec.xpad (m ((c : Thread nD τ).loc main_arg0)) (i 0) (i 1).val := by
  have e : (V1 (F := Ideal) m ρ c main_call0_v0 : S256x49152.Idx → Ideal .f32)
      = pad S256x49152 ![0, 0] ![0, 5344] ![0, 0] (m ((c : Thread nD τ).loc main_arg0)) (sitofp (F := Ideal) .f32 (constantI S_ 32 0#32)) pads_S256x43808_S256x49152_000_053440 h_S_ := by
    dsimp only [V1, W1, hostOps0]; after_results; rfl
  rw [e]
  funext i
  unfold Cert.Spec.xpad
  by_cases h : (i 1).val < 43808
  · rw [dif_pos h]
    refine pad_apply_of_inside _ _ _ _ _ _ _ i (ix2 (i 0) ⟨(i 1).val, h⟩) (fun a => ?_)
    match a with
    | ⟨0, _⟩ => show (i 0).val = 0 + (i 0).val * (0 + 1); omega
    | ⟨1, _⟩ => show (i 1).val = 0 + (i 1).val * (0 + 1); omega
  · rw [dif_neg h]
    refine (pad_apply_of_not_inside _ _ _ _ _ _ _ i (1 : Fin 2) ?_).trans ?_
    · show ¬(0 ≤ (i 1).val ∧ ((i 1).val - 0) % 1 = 0 ∧ ((i 1).val - 0) / 1 < 43808)
      omega
    · show (Scalar.sitofp .f32 0#32 : Ideal .f32) = 0
      exact sitofp_zero

/-! ## The first region's steps (auxiliaries of `partial_eq`) -/

namespace Region0

/-- The zero offsets of a whole rank-3 block. -/
theorem hz3 : (![0, 0, 0] : Fin 3 → Nat) = fun _ => 0 := funext fun a => by fin_cases a <;> rfl
/-- The zero offsets of a whole rank-2 block. -/
theorem hz2 : (![0, 0] : Fin 2 → Nat) = fun _ => 0 := funext fun a => by fin_cases a <;> rfl

/-- At a tile after the first the body leaves, in the output's staging buffer holding `xo`, `xo` plus the product of
    the tile's blocks: its one covering store's payload, whose loads read the whole buffers. -/
theorem out_B (c : Dev nD) (i : grid0.Coords) (a2 : Memref sig .tc .vmem S256x8192 .f32) (h2 : a2.IsWhole)
    (a3 : Memref sig .tc .vmem S8192x64 .f32) (h3 : a3.IsWhole) (a4 : Memref sig .tc .vmem S1x256x64 .f32) (h4 : a4.IsWhole)
    (hc : ¬cond0_0 i) (x0 : Vec Ideal S256x8192 .f32) (x1 : Vec Ideal S8192x64 .f32) (xo : Vec Ideal S1x256x64 .f32) :
    out0_B_2 c i a2 h2 a3 h3 a4 h4 hc x0 x1 xo = k0_pay2 xo x0 x1 := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x256x64) hz3,
    View.ld_unit_zero (S := S256x8192) hz2, View.ld_unit_zero (S := S8192x64) hz2]

/-- At the first tile of a half the body stores the zero block, reads it back, and leaves zero plus the product of the
    tile's blocks. -/
theorem out_A (c : Dev nD) (i : grid0.Coords) (a2 : Memref sig .tc .vmem S256x8192 .f32) (h2 : a2.IsWhole)
    (a3 : Memref sig .tc .vmem S8192x64 .f32) (h3 : a3.IsWhole) (a4 : Memref sig .tc .vmem S1x256x64 .f32) (h4 : a4.IsWhole)
    (hc : cond0_0 i) (x0 : Vec Ideal S256x8192 .f32) (x1 : Vec Ideal S8192x64 .f32) :
    out0_A_2 c i a2 h2 a3 h3 a4 h4 hc x0 x1 = k0_pay2 (k0_pay1 (F := Ideal)) x0 x1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x256x64) hz3, View.readCov_unit_zero (S := S1x256x64) _ hz3]
  simp only [View.readAt_eq_ld, h2.read_unread, h3.read_unread, View.ld_unit_zero (S := S256x8192) hz2,
    View.ld_unit_zero (S := S8192x64) hz2]

/-- On the product's output axis 0 the left operand reads the output row. -/
theorem lhs_dot_0 (j : S256x64.Idx) (k : dot_S256x8192_S8192x64_S256x64_1_0_0_1_n_n.contr.Idx) :
    (dot_S256x8192_S8192x64_S256x64_1_0_0_1_n_n.lhsIdx j k 0).val = (j 0).val := by
  simp [DotDims.lhsIdx, dot_S256x8192_S8192x64_S256x64_1_0_0_1_n_n]; rfl
/-- On its contracting axis 1 the left operand reads the contraction's coordinate. -/
theorem lhs_dot_1 (j : S256x64.Idx) (k : dot_S256x8192_S8192x64_S256x64_1_0_0_1_n_n.contr.Idx) :
    (dot_S256x8192_S8192x64_S256x64_1_0_0_1_n_n.lhsIdx j k 1).val = (k ⟨0, by decide⟩).val :=
  dot_S256x8192_S8192x64_S256x64_1_0_0_1_n_n.lhsIdx_val_of_single rfl j k
/-- On its contracting axis 0 the right operand reads the contraction's coordinate. -/
theorem rhs_dot_0 (j : S256x64.Idx) (k : dot_S256x8192_S8192x64_S256x64_1_0_0_1_n_n.contr.Idx) :
    (dot_S256x8192_S8192x64_S256x64_1_0_0_1_n_n.rhsIdx j k 0).val = (k ⟨0, by decide⟩).val :=
  dot_S256x8192_S8192x64_S256x64_1_0_0_1_n_n.rhsIdx_val_of_single rfl j k
/-- On the product's output axis 1 the right operand reads the output column. -/
theorem rhs_dot_1 (j : S256x64.Idx) (k : dot_S256x8192_S8192x64_S256x64_1_0_0_1_n_n.contr.Idx) :
    (dot_S256x8192_S8192x64_S256x64_1_0_0_1_n_n.rhsIdx j k 1).val = (j 1).val := by
  simp [DotDims.rhsIdx, dot_S256x8192_S8192x64_S256x64_1_0_0_1_n_n]; rfl

/-- A tile's product into the zero accumulator, entry by entry: row `r` of the left block against column `j` of the right. -/
theorem tile_dot_apply (a : FVec Ideal S256x8192 .f32) (b : FVec Ideal S8192x64 .f32) (r : Fin 256) (j : Fin 64) :
    matmul dot_S256x8192_S8192x64_S256x64_1_0_0_1_n_n none a b (constant (F := Ideal) S256x64 .f32 0x00000000#32) (ix2 r j)
      = ∑ k : Fin 8192, a (ix2 r k) * b (ix2 k j) := by
  refine (Ideal.matmul_constant_zero_apply dot_S256x8192_S8192x64_S256x64_1_0_0_1_n_n none a b (ix2 r j)).trans ?_
  rw [← Equiv.sum_comp (contrEquiv1 dot_S256x8192_S8192x64_S256x64_1_0_0_1_n_n 8192 rfl rfl).symm]
  refine Finset.sum_congr rfl fun k _ => ?_
  have hk := contrEquiv1_symm_val dot_S256x8192_S8192x64_S256x64_1_0_0_1_n_n 8192 rfl rfl k
  have hl : dot_S256x8192_S8192x64_S256x64_1_0_0_1_n_n.lhsIdx (ix2 r j)
      ((contrEquiv1 dot_S256x8192_S8192x64_S256x64_1_0_0_1_n_n 8192 rfl rfl).symm k) = ix2 r k := by
    funext ax; apply Fin.ext
    match ax with
    | ⟨0, _⟩ => exact lhs_dot_0 _ _
    | ⟨1, _⟩ => exact (lhs_dot_1 _ _).trans hk
  have hr : dot_S256x8192_S8192x64_S256x64_1_0_0_1_n_n.rhsIdx (ix2 r j)
      ((contrEquiv1 dot_S256x8192_S8192x64_S256x64_1_0_0_1_n_n 8192 rfl rfl).symm k) = ix2 k j := by
    funext ax; apply Fin.ext
    match ax with
    | ⟨0, _⟩ => exact (rhs_dot_0 _ _).trans hk
    | ⟨1, _⟩ => exact rhs_dot_1 _ _
  rw [hl, hr]

/-- The update's payload, entry by entry: the running block plus the tile's product. -/
theorem pay2_apply (v3 : Vec Ideal S1x256x64 .f32) (v5 : Vec Ideal S256x8192 .f32) (v7 : Vec Ideal S8192x64 .f32)
    (z : Fin 1) (r : Fin 256) (j : Fin 64) :
    k0_pay2 v3 v5 v7 (ix3 z r j) = v3 (ix3 z r j) + ∑ k : Fin 8192, v5 (ix2 r k) * v7 (ix2 k j) := by
  unfold k0_pay2
  refine (addf_apply _ _ (ix3 z r j)).trans ?_
  refine congrArg₂ (· + ·) ?_ ?_
  · exact congrFun (shapeCast_self v3 _) (ix3 z r j)
  · refine (shapeCast_addUnit_apply ![256, 64] _ _ (ix3 z r j)).trans ?_
    have e : (fun a : Fin 2 => ix3 z r j a.succ) = ix2 r j :=
      funext fun a => by match a with | ⟨0, _⟩ => rfl | ⟨1, _⟩ => rfl
    rw [shapeCast_self, e]
    exact tile_dot_apply v5 v7 r j

/-- The reset's payload is zero everywhere. -/
theorem pay1_apply (i : S1x256x64.Idx) : k0_pay1 (F := Ideal) i = 0 := by
  unfold k0_pay1
  exact Ideal.ofBits_zero_f32

/-- The grid's index maps, decided over its six points: the padded `x`'s block is column tile `t`, `w1`'s block is row
    tile `t`, the output's block is half `t / 3`. -/
theorem idx_facts : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 3) = t.val / 3 ∧ win0_2.index t (1 : Fin 3) = 0 ∧ win0_2.index t (2 : Fin 3) = 0 :=
  (by decide +kernel : ∀ t : Fin grid0.N, _)

/-- The padded `x`'s block at point `t`. -/
abbrev xblk (c : Dev nD) (t : Fin cfg0.N) : Vec Ideal S256x8192 .f32 := iblk0 (V1 m ρ) c 0 t
/-- `w1`'s block at point `t`. -/
abbrev wblk (c : Dev nD) (t : Fin cfg0.N) : Vec Ideal S8192x64 .f32 := iblk0 (V1 m ρ) c 1 t

/-- No host operation writes `w1`: the region finds it as launched. -/
theorem w1_eq (c : Dev nD) :
    (V1 (F := Ideal) m ρ c main_arg1 : S49152x64.Idx → Ideal .f32) = m ((c : Thread nD τ).loc main_arg1) := by
  dsimp only [V1, W1, hostOps0]; after_results

/-- The padded `x`'s block at point `t` holds columns `8192 t ..` of the padded row. -/
theorem xblk_apply (c : Dev nD) (t : Fin cfg0.N) (r : Fin 256) (kk : Fin 8192) :
    xblk m ρ c t (ix2 r kk) = Cert.Spec.xpad (m ((c : Thread nD τ).loc main_arg0)) r (t.val * 8192 + kk.val) := by
  obtain ⟨h00, h01, -⟩ := idx_facts t
  unfold xblk iblk0
  rw [View.read_apply]
  show V1 m ρ c main_call0_v0 (((cfg0.win 0).blk t).view.emb (ix2 r kk)) = _
  rw [xp_eq]
  show Cert.Spec.xpad _ (((cfg0.win 0).blk t).view.emb (ix2 r kk) 0) (((cfg0.win 0).blk t).view.emb (ix2 r kk) 1).val = _
  have e0 : ((cfg0.win 0).blk t).view.emb (ix2 r kk) 0 = r := Fin.ext (by
    show win0_0.index t 0 * 256 + 1 * r.val = r.val
    rw [h00]; omega)
  have e1 : (((cfg0.win 0).blk t).view.emb (ix2 r kk) 1).val = t.val * 8192 + kk.val := by
    show win0_0.index t 1 * 8192 + 1 * kk.val = _
    rw [h01]; omega
  rw [e0, e1]

/-- `w1`'s block at point `t` holds its rows `8192 t ..`. -/
theorem wblk_apply (c : Dev nD) (t : Fin cfg0.N) (kk : Fin 8192) (j : Fin 64) (hk : t.val * 8192 + kk.val < 49152) :
    wblk m ρ c t (ix2 kk j) = m ((c : Thread nD τ).loc main_arg1) (ix2 ⟨t.val * 8192 + kk.val, hk⟩ j) := by
  obtain ⟨-, -, h10, h11, -⟩ := idx_facts t
  unfold wblk iblk0
  rw [View.read_apply]
  show V1 m ρ c main_arg1 (((cfg0.win 1).blk t).view.emb (ix2 kk j)) = _
  rw [w1_eq]
  refine congrArg _ (funext fun a => Fin.ext ?_)
  match a with
  | ⟨0, _⟩ => show win0_1.index t 0 * 8192 + 1 * kk.val = t.val * 8192 + kk.val
              rw [h10]; omega
  | ⟨1, _⟩ => show win0_1.index t 1 * 64 + 1 * j.val = j.val
              rw [h11]; omega

/-- The contraction of the padded row `r` with column `j` of `w1` over the first `n` tiles (of 8192 columns) of half `s`. -/
def part (x : Cert.Spec.Mat 256 43808) (w1 : Cert.Spec.Mat 49152 64) (r : Fin 256) (j : Fin 64) (s n : ℕ) : Ideal .f32 :=
  ∑ tt : Fin n, ∑ kk : Fin 8192, Cert.Spec.term x w1 r j (s * 24576 + (tt.val * 8192 + kk.val))

/-- One tile. -/
theorem part_one (x : Cert.Spec.Mat 256 43808) (w1 : Cert.Spec.Mat 49152 64) (r : Fin 256) (j : Fin 64) (s : ℕ) :
    part x w1 r j s 1 = ∑ kk : Fin 8192, Cert.Spec.term x w1 r j (s * 24576 + (0 * 8192 + kk.val)) := by
  unfold part
  exact Fin.sum_univ_one _

/-- One more tile. -/
theorem part_succ (x : Cert.Spec.Mat 256 43808) (w1 : Cert.Spec.Mat 49152 64) (r : Fin 256) (j : Fin 64) (s n : ℕ) :
    part x w1 r j s (n + 1)
      = part x w1 r j s n + ∑ kk : Fin 8192, Cert.Spec.term x w1 r j (s * 24576 + (n * 8192 + kk.val)) := by
  unfold part
  rw [Fin.sum_univ_castSucc]
  rfl

/-- Three tiles make a half. -/
theorem part_three (x : Cert.Spec.Mat 256 43808) (w1 : Cert.Spec.Mat 49152 64) (r : Fin 256) (j : Fin 64) (s : Fin 2) :
    part x w1 r j s.val 3 = Cert.Spec.halfSum x w1 s r j := by
  unfold part
  rw [Cert.Spec.sum_tiles 3 8192 (fun n => Cert.Spec.term x w1 r j (s.val * 24576 + n))]
  unfold Cert.Spec.halfSum
  show ∑ k : Fin 24576, Cert.Spec.term x w1 r j (s.val * 24576 + k.val) = _
  refine Finset.sum_congr rfl fun k _ => ?_
  unfold Cert.Spec.term
  rw [dif_pos (show s.val * 24576 + k.val < 49152 by have := s.isLt; have := k.isLt; omega)]

/-- The product of the two blocks at point `n`, at `(r, j)`: tile `n % 3` of half `n / 3`. -/
theorem tile_eq (c : Dev nD) (n : ℕ) (h : n < cfg0.N) (r : Fin 256) (j : Fin 64) :
    ∑ kk : Fin 8192, xblk m ρ c ⟨n, h⟩ (ix2 r kk) * wblk m ρ c ⟨n, h⟩ (ix2 kk j)
      = ∑ kk : Fin 8192, Cert.Spec.term (m ((c : Thread nD τ).loc main_arg0)) (m ((c : Thread nD τ).loc main_arg1)) r j
          (n / 3 * 24576 + (n % 3 * 8192 + kk.val)) := by
  have hN : n < 6 := lt_of_lt_of_eq h (show cfg0.N = 6 from N_0)
  refine Finset.sum_congr rfl fun kk _ => ?_
  have hk : n * 8192 + kk.val < 49152 := by have := kk.isLt; omega
  rw [xblk_apply m ρ c ⟨n, h⟩ r kk, wblk_apply m ρ c ⟨n, h⟩ kk j hk]
  have e : n / 3 * 24576 + (n % 3 * 8192 + kk.val) = n * 8192 + kk.val := by omega
  rw [e]
  unfold Cert.Spec.term
  rw [dif_pos hk]

/-- What the output's staging buffer holds after point `n`: the contraction over the tiles `0 .. n % 3` of half `n / 3`. -/
theorem outsAt_eq (c : Dev nD) : ∀ (n : ℕ) (h : n < cfg0.N),
    outsAt0 (V1 m ρ) c n h
      = fun i => part (m ((c : Thread nD τ).loc main_arg0)) (m ((c : Thread nD τ).loc main_arg1)) (i 1) (i 2) (n / 3) (n % 3 + 1) := by
  intro n
  induction n with
  | zero =>
    intro h
    rw [outsAt0_A (V1 m ρ) c ⟨0, h⟩ rfl, out_A]
    funext i
    obtain ⟨z, r, j, rfl⟩ : ∃ (z : Fin 1) (r : Fin 256) (j : Fin 64), i = ix3 z r j := ⟨i 0, i 1, i 2, eq_ix3 i⟩
    rw [pay2_apply, pay1_apply, zero_add]
    refine (tile_eq m ρ c 0 h r j).trans ?_
    show _ = part _ _ r j 0 1
    rw [part_one]
  | succ n ih =>
    intro h
    by_cases h0 : (n + 1) % 3 = 0
    · rw [outsAt0_A (V1 m ρ) c ⟨n + 1, h⟩ h0, out_A]
      funext i
      obtain ⟨z, r, j, rfl⟩ : ∃ (z : Fin 1) (r : Fin 256) (j : Fin 64), i = ix3 z r j := ⟨i 0, i 1, i 2, eq_ix3 i⟩
      rw [pay2_apply, pay1_apply, zero_add]
      refine (tile_eq m ρ c (n + 1) h r j).trans ?_
      show _ = part _ _ r j ((n + 1) / 3) ((n + 1) % 3 + 1)
      rw [h0, part_one]
    · rw [outsAt0_B (V1 m ρ) c ⟨n + 1, h⟩ h0, out_B]
      show k0_pay2 (outsAt0 (V1 m ρ) c n _) (xblk m ρ c ⟨n + 1, h⟩) (wblk m ρ c ⟨n + 1, h⟩) = _
      rw [ih]
      funext i
      obtain ⟨z, r, j, rfl⟩ : ∃ (z : Fin 1) (r : Fin 256) (j : Fin 64), i = ix3 z r j := ⟨i 0, i 1, i 2, eq_ix3 i⟩
      rw [pay2_apply, tile_eq m ρ c (n + 1) h r j]
      show part _ _ r j (n / 3) (n % 3 + 1) + _ = part _ _ r j ((n + 1) / 3) ((n + 1) % 3 + 1)
      rw [show n / 3 = (n + 1) / 3 by omega, show n % 3 + 1 = (n + 1) % 3 by omega]
      exact (part_succ _ _ r j _ _).symm

/-- The two halves' contractions, as contents of the output array. -/
abbrev halves (c : Dev nD) : Buf (Elt Ideal) ((c : Thread nD τ).loc main_call0_v1) :=
  fun i => Cert.Spec.halfSum (m ((c : Thread nD τ).loc main_arg0)) (m ((c : Thread nD τ).loc main_arg1)) (i 0) (i 1) (i 2)

/-- A write-back (after tile 2 of half `s`) writes block `s` of the two halves' contractions. -/
theorem flushed_eq (c : Dev nD) (t : Fin cfg0.N) (hf : (cfg0.win 2).flush t = true) :
    (dat0 (V1 m ρ) c).flushed 2 t = ((cfg0.win 2).blk t).view.read (Elt Ideal) (halves m c) := by
  have hN : t.val < 6 := lt_of_lt_of_eq t.isLt (show cfg0.N = 6 from N_0)
  have h2 : t.val % 3 = 2 := (flush0_2 t).mp hf
  obtain ⟨-, -, -, -, h20, h21, h22⟩ := idx_facts t
  show (cfg0.win 2).cut (grid0.coords t) ((dat0 (V1 m ρ) c).after 2 t) = _
  rw [after0_2, outsAt_eq]
  funext y
  rw [View.read_apply]
  have hy0 : (y 0).val < 1 := (y 0).isLt
  have hy1 : (y 1).val < 256 := (y 1).isLt
  have hy2 : (y 2).val < 64 := (y 2).isLt
  have e : ((cfg0.win 2).blk t).view.emb y
      = ix3 (⟨t.val / 3, by omega⟩ : Fin 2) (⟨(y 1).val, hy1⟩ : Fin 256) (⟨(y 2).val, hy2⟩ : Fin 64) := by
    funext a; apply Fin.ext
    match a with
    | ⟨0, _⟩ => show win0_2.index t 0 * 1 + 1 * (y 0).val = t.val / 3
                rw [h20]; omega
    | ⟨1, _⟩ => show win0_2.index t 1 * 256 + 1 * (y 1).val = (y 1).val
                rw [h21]; omega
    | ⟨2, _⟩ => show win0_2.index t 2 * 64 + 1 * (y 2).val = (y 2).val
                rw [h22]; omega
  refine Eq.trans ?_ (cast_eq _ _).symm
  rw [e]
  show part _ _ _ _ (t.val / 3) (t.val % 3 + 1) = Cert.Spec.halfSum _ _ _ _ _
  rw [h2]
  exact part_three _ _ _ _ (⟨t.val / 3, by omega⟩ : Fin 2)

/-- Every index of the output array lies in the block written back after tile 2 of its half. -/
theorem cover (c : Dev nD) (i : S2x256x64.Idx) :
    ∃ t : Fin cfg0.N, (cfg0.win 2).flush t = true ∧ i ∈ ((cfg0.win 2).blk t).view.set := by
  have hi0 : (i 0).val < 2 := (i 0).isLt
  have hi1 : (i 1).val < 256 := (i 1).isLt
  have hi2 : (i 2).val < 64 := (i 2).isLt
  have hN : cfg0.N = 6 := N_0
  have ht : 3 * (i 0).val + 2 < cfg0.N := by rw [hN]; omega
  refine ⟨⟨3 * (i 0).val + 2, ht⟩, (flush0_2 _).mpr (by show (3 * (i 0).val + 2) % 3 = 2; omega), ?_⟩
  obtain ⟨-, -, -, -, h20, h21, h22⟩ := idx_facts ⟨3 * (i 0).val + 2, ht⟩
  show i ∈ ((View.whole main_call0_v1).slice (win0_2.rect ⟨3 * (i 0).val + 2, ht⟩)).set
  rw [View.set_slice_whole, Rect.mem_set_unit]
  intro a
  match a with
  | ⟨0, _⟩ => show win0_2.index ⟨3 * (i 0).val + 2, ht⟩ 0 * 1 ≤ (i 0).val ∧ (i 0).val < win0_2.index ⟨3 * (i 0).val + 2, ht⟩ 0 * 1 + 1
              rw [h20]; show (3 * (i 0).val + 2) / 3 * 1 ≤ (i 0).val ∧ (i 0).val < (3 * (i 0).val + 2) / 3 * 1 + 1; omega
  | ⟨1, _⟩ => show win0_2.index ⟨3 * (i 0).val + 2, ht⟩ 1 * 256 ≤ (i 1).val ∧ (i 1).val < win0_2.index ⟨3 * (i 0).val + 2, ht⟩ 1 * 256 + 256
              rw [h21]; omega
  | ⟨2, _⟩ => show win0_2.index ⟨3 * (i 0).val + 2, ht⟩ 2 * 64 ≤ (i 2).val ∧ (i 2).val < win0_2.index ⟨3 * (i 0).val + 2, ht⟩ 2 * 64 + 64
              rw [h22]; omega

end Region0

open Region0 in
/-- The first region's output array after its write-backs: the two halves' contractions. -/
theorem partial_eq (c : Dev nD) :
    ((dat0 (F := Ideal) (V1 m ρ) c).arrAt 2 cfg0.N : S2x256x64.Idx → Ideal .f32)
      = fun i => Cert.Spec.halfSum (m ((c : Thread nD τ).loc main_arg0)) (m ((c : Thread nD τ).loc main_arg1)) (i 0) (i 1) (i 2) :=
  (dat0 (V1 m ρ) c).arrAt_eq_of_cover 2 (halves m c) (flushed_eq m ρ c) (cover c)

end Cert.ReferenceIdeal.RefValue

end
-- ==== Proof.RefHead.lean ====
/-
  The reference's head payload at an index, at the extended reals.

  The head kernel's payload at `(r, q)` adds the two partial sums of row `r` (a reduction over the leading axis of
  extent 2, from zero) and runs the bias, the leaky rectifier and the two affine layers: `Cert.Spec.head` of the added
  halves.
-/
import proofs.«100141_g2000406171838923_pallasbulk_1035_2_alg».proof.Proof.Spec
import proofs.«100141_g2000406171838923_pallasbulk_1035_2_alg».proof.Proof.Gen.ReferenceIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

open scoped BigOperators

namespace Cert.ReferenceIdeal.RefValue

open Cert.ReferenceIdeal Cert.ReferenceIdeal.Gen

namespace Head

/-- The reduced index `(r, l)` with the leading coordinate `k` put back is `(k, r, l)`. -/
theorem lift_ix3 (h : S2x256x64.Reduces [0] S256x64) (r : Fin 256) (l : Fin 64) (k : Fin (S2x256x64.size 0)) :
    h.lift (ix2 r l) k = ix3 (⟨k.val, k.isLt⟩ : Fin 2) r l := by
  funext c; apply Fin.ext
  fin_cases c <;> rfl

/-- The reduction over the leading axis of extent 2, from zero, adds the two halves. -/
theorem sumHalves_apply (P : FVec Ideal S2x256x64 .f32) (h : S2x256x64.Reduces [0] S256x64) (hφ : FKind.Formats .f32)
    (hacc : (0x00000000#32 : BitVec 32) = FKind.add.neutral .f32 hφ) (r : Fin 256) (l : Fin 64) :
    multiReduction (F := Ideal) .add [0] S256x64 P 0x00000000#32 h hφ hacc (ix2 r l)
      = P (ix3 (0 : Fin 2) r l) + P (ix3 (1 : Fin 2) r l) := by
  refine (Ideal.multiReduction_add_single P 0x00000000#32 h hφ hacc (ix2 r l)).trans ?_
  simp only [lift_ix3]
  exact Fin.sum_univ_two (fun k : Fin 2 => P (ix3 k r l))

/-- The operand indices of the 256×64 by 64×32 product at result index `i` and contraction index `q`, axis by axis. -/
theorem lhs_fc2_0 (i : S256x32.Idx) (q : dot_S256x64_S64x32_S256x32_1_0_0_1_n_n.contr.Idx) :
    (dot_S256x64_S64x32_S256x32_1_0_0_1_n_n.lhsIdx i q 0).val = (i 0).val := by
  unfold DotDims.lhsIdx
  rw [dif_neg (show ¬(0 : Fin S256x64.rank) ∈ dot_S256x64_S64x32_S256x32_1_0_0_1_n_n.lhsBatch by decide),
    dif_pos (show (0 : Fin S256x64.rank) ∈ dot_S256x64_S64x32_S256x32_1_0_0_1_n_n.lhsNonContracting by decide)]
  rfl
theorem lhs_fc2_1 (i : S256x32.Idx) (q : dot_S256x64_S64x32_S256x32_1_0_0_1_n_n.contr.Idx) :
    (dot_S256x64_S64x32_S256x32_1_0_0_1_n_n.lhsIdx i q 1).val = (q ⟨0, by decide⟩).val :=
  dot_S256x64_S64x32_S256x32_1_0_0_1_n_n.lhsIdx_val_of_single rfl i q
theorem rhs_fc2_0 (i : S256x32.Idx) (q : dot_S256x64_S64x32_S256x32_1_0_0_1_n_n.contr.Idx) :
    (dot_S256x64_S64x32_S256x32_1_0_0_1_n_n.rhsIdx i q 0).val = (q ⟨0, by decide⟩).val :=
  dot_S256x64_S64x32_S256x32_1_0_0_1_n_n.rhsIdx_val_of_single rfl i q
theorem rhs_fc2_1 (i : S256x32.Idx) (q : dot_S256x64_S64x32_S256x32_1_0_0_1_n_n.contr.Idx) :
    (dot_S256x64_S64x32_S256x32_1_0_0_1_n_n.rhsIdx i q 1).val = (i 1).val := by
  unfold DotDims.rhsIdx
  rw [dif_neg (show ¬(1 : Fin S64x32.rank) ∈ dot_S256x64_S64x32_S256x32_1_0_0_1_n_n.rhsBatch by decide),
    dif_pos (show (1 : Fin S64x32.rank) ∈ dot_S256x64_S64x32_S256x32_1_0_0_1_n_n.rhsNonContracting by decide)]
  rfl

/-- The 256×64 by 64×32 product into zero, at `(r, k)`: row `r` of the left operand against column `k` of the right. -/
theorem fc2_apply (A : FVec Ideal S256x64 .f32) (B : FVec Ideal S64x32 .f32) (r : Fin 256) (k : Fin 32) :
    matmul dot_S256x64_S64x32_S256x32_1_0_0_1_n_n none A B (constant (F := Ideal) S256x32 .f32 0x00000000#32) (ix2 r k)
      = ∑ l : Fin 64, A (ix2 r l) * B (ix2 l k) := by
  refine (Ideal.matmul_constant_zero_apply dot_S256x64_S64x32_S256x32_1_0_0_1_n_n none A B (ix2 r k)).trans ?_
  rw [← Equiv.sum_comp (contrEquiv1 dot_S256x64_S64x32_S256x32_1_0_0_1_n_n 64 rfl rfl).symm]
  refine Finset.sum_congr rfl fun l _ => ?_
  have hk := contrEquiv1_symm_val dot_S256x64_S64x32_S256x32_1_0_0_1_n_n 64 rfl rfl l
  have el : dot_S256x64_S64x32_S256x32_1_0_0_1_n_n.lhsIdx (ix2 r k) ((contrEquiv1 dot_S256x64_S64x32_S256x32_1_0_0_1_n_n 64 rfl rfl).symm l) = ix2 r l :=
    funext fun a => Fin.ext (by
      match a with
      | ⟨0, _⟩ => exact lhs_fc2_0 _ _
      | ⟨1, _⟩ => exact (lhs_fc2_1 _ _).trans hk)
  have er : dot_S256x64_S64x32_S256x32_1_0_0_1_n_n.rhsIdx (ix2 r k) ((contrEquiv1 dot_S256x64_S64x32_S256x32_1_0_0_1_n_n 64 rfl rfl).symm l) = ix2 l k :=
    funext fun a => Fin.ext (by
      match a with
      | ⟨0, _⟩ => exact (rhs_fc2_0 _ _).trans hk
      | ⟨1, _⟩ => exact rhs_fc2_1 _ _)
  rw [el, er]

/-- The operand indices of the 256×32 by 32×6 product at result index `i` and contraction index `q`, axis by axis. -/
theorem lhs_fc3_0 (i : S256x6.Idx) (q : dot_S256x32_S32x6_S256x6_1_0_0_1_n_n.contr.Idx) :
    (dot_S256x32_S32x6_S256x6_1_0_0_1_n_n.lhsIdx i q 0).val = (i 0).val := by
  unfold DotDims.lhsIdx
  rw [dif_neg (show ¬(0 : Fin S256x32.rank) ∈ dot_S256x32_S32x6_S256x6_1_0_0_1_n_n.lhsBatch by decide),
    dif_pos (show (0 : Fin S256x32.rank) ∈ dot_S256x32_S32x6_S256x6_1_0_0_1_n_n.lhsNonContracting by decide)]
  rfl
theorem lhs_fc3_1 (i : S256x6.Idx) (q : dot_S256x32_S32x6_S256x6_1_0_0_1_n_n.contr.Idx) :
    (dot_S256x32_S32x6_S256x6_1_0_0_1_n_n.lhsIdx i q 1).val = (q ⟨0, by decide⟩).val :=
  dot_S256x32_S32x6_S256x6_1_0_0_1_n_n.lhsIdx_val_of_single rfl i q
theorem rhs_fc3_0 (i : S256x6.Idx) (q : dot_S256x32_S32x6_S256x6_1_0_0_1_n_n.contr.Idx) :
    (dot_S256x32_S32x6_S256x6_1_0_0_1_n_n.rhsIdx i q 0).val = (q ⟨0, by decide⟩).val :=
  dot_S256x32_S32x6_S256x6_1_0_0_1_n_n.rhsIdx_val_of_single rfl i q
theorem rhs_fc3_1 (i : S256x6.Idx) (q : dot_S256x32_S32x6_S256x6_1_0_0_1_n_n.contr.Idx) :
    (dot_S256x32_S32x6_S256x6_1_0_0_1_n_n.rhsIdx i q 1).val = (i 1).val := by
  unfold DotDims.rhsIdx
  rw [dif_neg (show ¬(1 : Fin S32x6.rank) ∈ dot_S256x32_S32x6_S256x6_1_0_0_1_n_n.rhsBatch by decide),
    dif_pos (show (1 : Fin S32x6.rank) ∈ dot_S256x32_S32x6_S256x6_1_0_0_1_n_n.rhsNonContracting by decide)]
  rfl

/-- The 256×32 by 32×6 product into zero, at `(r, k)`: row `r` of the left operand against column `k` of the right. -/
theorem fc3_apply (A : FVec Ideal S256x32 .f32) (B : FVec Ideal S32x6 .f32) (r : Fin 256) (k : Fin 6) :
    matmul dot_S256x32_S32x6_S256x6_1_0_0_1_n_n none A B (constant (F := Ideal) S256x6 .f32 0x00000000#32) (ix2 r k)
      = ∑ l : Fin 32, A (ix2 r l) * B (ix2 l k) := by
  refine (Ideal.matmul_constant_zero_apply dot_S256x32_S32x6_S256x6_1_0_0_1_n_n none A B (ix2 r k)).trans ?_
  rw [← Equiv.sum_comp (contrEquiv1 dot_S256x32_S32x6_S256x6_1_0_0_1_n_n 32 rfl rfl).symm]
  refine Finset.sum_congr rfl fun l _ => ?_
  have hk := contrEquiv1_symm_val dot_S256x32_S32x6_S256x6_1_0_0_1_n_n 32 rfl rfl l
  have el : dot_S256x32_S32x6_S256x6_1_0_0_1_n_n.lhsIdx (ix2 r k) ((contrEquiv1 dot_S256x32_S32x6_S256x6_1_0_0_1_n_n 32 rfl rfl).symm l) = ix2 r l :=
    funext fun a => Fin.ext (by
      match a with
      | ⟨0, _⟩ => exact lhs_fc3_0 _ _
      | ⟨1, _⟩ => exact (lhs_fc3_1 _ _).trans hk)
  have er : dot_S256x32_S32x6_S256x6_1_0_0_1_n_n.rhsIdx (ix2 r k) ((contrEquiv1 dot_S256x32_S32x6_S256x6_1_0_0_1_n_n 32 rfl rfl).symm l) = ix2 l k :=
    funext fun a => Fin.ext (by
      match a with
      | ⟨0, _⟩ => exact (rhs_fc3_0 _ _).trans hk
      | ⟨1, _⟩ => exact rhs_fc3_1 _ _)
  rw [el, er]

end Head

/-- The head kernel's payload at `(r, q)`. -/
theorem pay_head_apply (P : Vec Ideal S2x256x64 .f32) (b1 : Vec Ideal S1x64 .f32) (w2 : Vec Ideal S64x32 .f32)
    (b2 : Vec Ideal S1x32 .f32) (w3 : Vec Ideal S32x6 .f32) (b3 : Vec Ideal S1x6 .f32) (r : Fin 256) (q : Fin 6) :
    k1_pay1 (F := Ideal) P b1 w2 b2 w3 b3 (ix2 r q)
      = Cert.Spec.head b1 w2 b2 w3 b3 (fun j => P (ix3 0 r j) + P (ix3 1 r j)) q := by
  unfold k1_pay1 Cert.Spec.head Cert.Spec.lrelu
  simp only [addf_apply, Head.fc3_apply, select_apply, cmpf_apply, mulf_apply, broadcast_apply, Head.fc2_apply,
    Head.sumHalves_apply, broadcastTo_1b_ab_apply, shapeCast_self]
  have e : ∀ l : Fin 64,
      multiReduction (F := Ideal) .add [0] S256x64 P 0x00000000#32 reduces_S2x256x64_S256x64 (.inl rfl) rfl (ix2 r l)
        = P (ix3 (0 : Fin 2) r l) + P (ix3 (1 : Fin 2) r l) := fun l => Head.sumHalves_apply P _ _ _ r l
  simp only [e]

end Cert.ReferenceIdeal.RefValue

end
-- ==== Proof.RefValue1.lean ====
/-
  The reference's result, at the extended reals, is the specification `Cert.Spec.G` of its arguments.

  The second region has one grid point: it reads the two partial sums whole, adds them (a reduction over the leading
  axis of extent 2 from zero), and runs the same bias / rectifier / affine layers as the specification's `head`. The
  two halves' contractions over 24576 padded columns each make the contraction over all 49152 (`sum_tiles`), which is
  the contraction over the 43808 real columns (`sum_pad`).
-/
import proofs.«100141_g2000406171838923_pallasbulk_1035_2_alg».proof.Proof.Spec
import proofs.«100141_g2000406171838923_pallasbulk_1035_2_alg».proof.Proof.RefValue0
import proofs.«100141_g2000406171838923_pallasbulk_1035_2_alg».proof.Proof.RefHead
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.ReferenceIdeal.RefValue

open Cert.ReferenceIdeal Cert.ReferenceIdeal.Gen

variable (m : (ℓ : Loc nD τ sig) → Buf (Elt Ideal) ℓ) (ρ : Dev nD → PrngReg)

/-- The specification at this program's argument arrays. -/
abbrev spec (c : Dev nD) : Buf (Elt Ideal) ((c : Thread nD τ).loc main_v0) :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The one grid point's blocks are the whole arrays -/

theorem zero3 : (![0, 0, 0] : Fin 3 → Nat) = fun _ => 0 := funext fun a => by fin_cases a <;> rfl
theorem zero2 : (![0, 0] : Fin 2 → Nat) = fun _ => 0 := funext fun a => by fin_cases a <;> rfl

/-- The bias and weight arrays are as launched when the second region is entered: neither the host's padding nor the
    first region writes them. -/
theorem entry_arg2 (c : Dev nD) : V2 m ρ c main_arg2 = m ((c : Thread nD τ).loc main_arg2) :=
  ((W3_arr m ρ c 1).trans (((dat1 (V2 m ρ) c).arrAt_in 1 rfl _).trans (A_eq1 (V2 m ρ) c 1))).symm.trans (W3_main_arg2 m ρ c)
theorem entry_arg3 (c : Dev nD) : V2 m ρ c main_arg3 = m ((c : Thread nD τ).loc main_arg3) :=
  ((W3_arr m ρ c 2).trans (((dat1 (V2 m ρ) c).arrAt_in 2 rfl _).trans (A_eq1 (V2 m ρ) c 2))).symm.trans (W3_main_arg3 m ρ c)
theorem entry_arg4 (c : Dev nD) : V2 m ρ c main_arg4 = m ((c : Thread nD τ).loc main_arg4) :=
  ((W3_arr m ρ c 3).trans (((dat1 (V2 m ρ) c).arrAt_in 3 rfl _).trans (A_eq1 (V2 m ρ) c 3))).symm.trans (W3_main_arg4 m ρ c)
theorem entry_arg5 (c : Dev nD) : V2 m ρ c main_arg5 = m ((c : Thread nD τ).loc main_arg5) :=
  ((W3_arr m ρ c 4).trans (((dat1 (V2 m ρ) c).arrAt_in 4 rfl _).trans (A_eq1 (V2 m ρ) c 4))).symm.trans (W3_main_arg5 m ρ c)
theorem entry_arg6 (c : Dev nD) : V2 m ρ c main_arg6 = m ((c : Thread nD τ).loc main_arg6) :=
  ((W3_arr m ρ c 5).trans (((dat1 (V2 m ρ) c).arrAt_in 5 rfl _).trans (A_eq1 (V2 m ρ) c 5))).symm.trans (W3_main_arg6 m ρ c)

/-- The first window's block is the whole array of partial sums, which the first region left holding the two halves'
    contractions. -/
theorem blk_partials (c : Dev nD) :
    (iblk1 (V2 m ρ) c 0 t1_0 : Vec Ideal S2x256x64 .f32)
      = fun i => Cert.Spec.halfSum (m ((c : Thread nD τ).loc main_arg0)) (m ((c : Thread nD τ).loc main_arg1)) (i 0) (i 1) (i 2) := by
  unfold iblk1
  have hz : (fun a => win1_0.index t1_0 a * main_call0_v1.ty.shape.size a) = fun _ => 0 :=
    funext fun a => by fin_cases a <;> decide
  refine (Memref.read_access_unit_zero (Elt Ideal) main_call0_v1 hz (fun a => by rw [congrFun hz a]; simp) _).trans ?_
  exact (W2_arr m ρ c 2).trans (partial_eq m ρ c)

/-- Each other input window's block is its whole argument array. -/
theorem blk_b1 (c : Dev nD) : (iblk1 (V2 m ρ) c 1 t1_0 : Vec Ideal S1x64 .f32) = m ((c : Thread nD τ).loc main_arg2) := by
  unfold iblk1
  have hz : (fun a => win1_1.index t1_0 a * main_arg2.ty.shape.size a) = fun _ => 0 :=
    funext fun a => by fin_cases a <;> decide
  exact (Memref.read_access_unit_zero (Elt Ideal) main_arg2 hz (fun a => by rw [congrFun hz a]; simp) _).trans (entry_arg2 m ρ c)
theorem blk_w2 (c : Dev nD) : (iblk1 (V2 m ρ) c 2 t1_0 : Vec Ideal S64x32 .f32) = m ((c : Thread nD τ).loc main_arg3) := by
  unfold iblk1
  have hz : (fun a => win1_2.index t1_0 a * main_arg3.ty.shape.size a) = fun _ => 0 :=
    funext fun a => by fin_cases a <;> decide
  exact (Memref.read_access_unit_zero (Elt Ideal) main_arg3 hz (fun a => by rw [congrFun hz a]; simp) _).trans (entry_arg3 m ρ c)
theorem blk_b2 (c : Dev nD) : (iblk1 (V2 m ρ) c 3 t1_0 : Vec Ideal S1x32 .f32) = m ((c : Thread nD τ).loc main_arg4) := by
  unfold iblk1
  have hz : (fun a => win1_3.index t1_0 a * main_arg4.ty.shape.size a) = fun _ => 0 :=
    funext fun a => by fin_cases a <;> decide
  exact (Memref.read_access_unit_zero (Elt Ideal) main_arg4 hz (fun a => by rw [congrFun hz a]; simp) _).trans (entry_arg4 m ρ c)
theorem blk_w3 (c : Dev nD) : (iblk1 (V2 m ρ) c 4 t1_0 : Vec Ideal S32x6 .f32) = m ((c : Thread nD τ).loc main_arg5) := by
  unfold iblk1
  have hz : (fun a => win1_4.index t1_0 a * main_arg5.ty.shape.size a) = fun _ => 0 :=
    funext fun a => by fin_cases a <;> decide
  exact (Memref.read_access_unit_zero (Elt Ideal) main_arg5 hz (fun a => by rw [congrFun hz a]; simp) _).trans (entry_arg5 m ρ c)
theorem blk_b3 (c : Dev nD) : (iblk1 (V2 m ρ) c 5 t1_0 : Vec Ideal S1x6 .f32) = m ((c : Thread nD τ).loc main_arg6) := by
  unfold iblk1
  have hz : (fun a => win1_5.index t1_0 a * main_arg6.ty.shape.size a) = fun _ => 0 :=
    funext fun a => by fin_cases a <;> decide
  exact (Memref.read_access_unit_zero (Elt Ideal) main_arg6 hz (fun a => by rw [congrFun hz a]; simp) _).trans (entry_arg6 m ρ c)

/-! ## What the one point leaves, and the result array -/

/-- The body's store at the one grid point leaves the specification: at `(r, q)` the later layers on the two halves'
    sums of row `r`, which together are the first layer's contraction. -/
theorem out_eq (c : Dev nD) :
    out1_6 (iblk1 (V2 m ρ) c 0 t1_0) (iblk1 (V2 m ρ) c 1 t1_0) (iblk1 (V2 m ρ) c 2 t1_0) (iblk1 (V2 m ρ) c 3 t1_0)
        (iblk1 (V2 m ρ) c 4 t1_0) (iblk1 (V2 m ρ) c 5 t1_0) = spec m c := by
  unfold out1_6
  rw [View.canon_unit_zero zero2]
  simp only [View.ld_unit_zero (S := S2x256x64) zero3, View.ld_unit_zero (S := S1x64) zero2,
    View.ld_unit_zero (S := S64x32) zero2, View.ld_unit_zero (S := S1x32) zero2, View.ld_unit_zero (S := S32x6) zero2,
    View.ld_unit_zero (S := S1x6) zero2]
  rw [blk_partials, blk_b1, blk_w2, blk_b2, blk_w3, blk_b3]
  funext i
  obtain ⟨r, q, rfl⟩ : ∃ (r : Fin 256) (q : Fin 6), i = ix2 r q := ⟨i 0, i 1, eq_ix2 i⟩
  refine (pay_head_apply _ _ _ _ _ _ r q).trans ?_
  exact congrArg (fun s => Cert.Spec.head _ _ _ _ _ s q) (funext fun l => Cert.Spec.halves_eq_fc1 _ _ r l)

/-- The one write-back writes it: the block at index zero of the `[256, 6]` array, read through zero offsets, is the
    array. -/
theorem flushed_eq (c : Dev nD) (t : Fin cfg1.N) :
    (dat1 (V2 m ρ) c).flushed 6 t = ((cfg1.win 6).blk t).view.read (Elt Ideal) (spec m c) := by
  obtain rfl : t = t1_0 := fin_N1 t
  show (cfg1.win 6).cut (grid1.coords t1_0) ((dat1 (V2 m ρ) c).after 6 t1_0) = _
  rw [after1_6, out_eq]
  have hz : (fun a => win1_6.index t1_0 a * main_v0.ty.shape.size a) = fun _ => 0 :=
    funext fun a => by fin_cases a <;> decide
  exact (Memref.read_access_unit_zero (Elt Ideal) main_v0 hz (fun a => by rw [congrFun hz a]; simp) (spec m c)).symm

/-- The one block covers the result array. -/
theorem cover (c : Dev nD) (i : (((cfg1.win 6).arr.view.loc (c.tc : Thread nD τ)).2.ty.Idx)) :
    ∃ t : Fin cfg1.N, (cfg1.win 6).flush t = true ∧ i ∈ ((cfg1.win 6).blk t).view.set :=
  ⟨t1_0, flush1_6 t1_0, by
    show i ∈ ((View.whole main_v0).slice (win1_6.rect t1_0)).set
    rw [View.set_slice_whole, Rect.mem_set_unit]
    intro a
    have h0 : (i 0 : Nat) < 256 := (i 0).isLt
    have h1 : (i 1 : Nat) < 6 := (i 1).isLt
    match a with
    | ⟨0, _⟩ =>
      show win1_6.index t1_0 0 * win1_6.size 0 ≤ (i 0 : Nat) ∧ (i 0 : Nat) < win1_6.index t1_0 0 * win1_6.size 0 + win1_6.xsize (grid1.coords t1_0) 0
      rw [show win1_6.index t1_0 0 * win1_6.size 0 = 0 from by decide +kernel, show win1_6.xsize (grid1.coords t1_0) 0 = 256 from by decide +kernel]; omega
    | ⟨1, _⟩ =>
      show win1_6.index t1_0 1 * win1_6.size 1 ≤ (i 1 : Nat) ∧ (i 1 : Nat) < win1_6.index t1_0 1 * win1_6.size 1 + win1_6.xsize (grid1.coords t1_0) 1
      rw [show win1_6.index t1_0 1 * win1_6.size 1 = 0 from by decide +kernel, show win1_6.xsize (grid1.coords t1_0) 1 = 6 from by decide +kernel]; omega⟩

/-- The result buffer at the last boundary of @main holds the specification. -/
theorem result_eq (c : Dev nD) : W3 (F := Ideal) m ρ c (Proc.devRef .tc main_v0) = spec m c :=
  (W3_arr m ρ c 6).trans
    ((dat1 (V2 m ρ) c).arrAt_eq_of_cover 6 (spec m c) (fun t _ => flushed_eq m ρ c t) (cover c))

end Cert.ReferenceIdeal.RefValue

end
-- ==== Proof.lean ====
/-
  `Cert.Claim`: the fused perceptron-head kernel against its two-kernel reference, over the extended reals.

  Both programs compute, for each of 256 rows, the head (bias, leaky rectifier, two small affine layers) of the row's
  contraction with the weight matrix `w1`; they differ in how the contraction over the 43808 columns is tiled and
  where its padding lives. The kernel streams eleven tiles of 4096 columns through an accumulator, masking the last
  tile's columns past the array; the reference pads `x` with zeros to 49152 columns, contracts two halves of three
  tiles each in a first kernel and adds the halves in a second. On the extended reals a zero factor kills its term and
  sums regroup freely, so both results are the one function `Cert.Spec.G` of the arguments.

  The three frames: the kernel's (at the word level and idealized) is proved from the body's three branch patterns
  run on any staging buffers and an invariant that carries the accumulator between grid points; the reference's is
  generated. `preserves` is trivial (the ideal pass rewrote nothing). `algebraic`: the kernel's run with its result
  array read back as `G` (KIValue), the reference's run with its result buffer read back as `G` (RefRun, RefValue0,
  RefValue1), the arguments agreeing.
-/
import proofs.«100141_g2000406171838923_pallasbulk_1035_2_alg».proof.Defs
import proofs.«100141_g2000406171838923_pallasbulk_1035_2_alg».proof.Proof.Gen.Kernel
import proofs.«100141_g2000406171838923_pallasbulk_1035_2_alg».proof.Proof.Gen.KernelIdeal
import proofs.«100141_g2000406171838923_pallasbulk_1035_2_alg».proof.Proof.Gen.ReferenceIdeal
import proofs.«100141_g2000406171838923_pallasbulk_1035_2_alg».proof.Proof.Gen.ReferenceIdeal.Frame
import proofs.«100141_g2000406171838923_pallasbulk_1035_2_alg».proof.Proof.Gen.Pre_finite_inputs
import proofs.«100141_g2000406171838923_pallasbulk_1035_2_alg».proof.Proof.KFrame
import proofs.«100141_g2000406171838923_pallasbulk_1035_2_alg».proof.Proof.KIFrame
import proofs.«100141_g2000406171838923_pallasbulk_1035_2_alg».proof.Proof.KIValue
import proofs.«100141_g2000406171838923_pallasbulk_1035_2_alg».proof.Proof.RefRun
import proofs.«100141_g2000406171838923_pallasbulk_1035_2_alg».proof.Proof.RefValue1
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => Cert.ReferenceIdeal.Gen.frame m ρ

/-- The kernel's run with its result named: the result array ends at the specification of the arguments, the arguments
    as launched. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0) = Cert.KernelIdeal.KValue.spec m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  refine (θ_run Cert.KernelIdeal.defs _ _).mono (fun r h c => ?_) (Cert.KernelIdeal.Hand.run_main (F := Ideal) m ρ)
  exact ⟨((h c).1 7).trans (Cert.KernelIdeal.KValue.final_out m c),
    ((h c).1 0).trans (((Cert.KernelIdeal.Hand.dats m 0 c).arrAt_in 0 rfl _).trans ((Cert.KernelIdeal.Hand.A_eq m c 0).trans (Cert.KernelIdeal.Gen.V_main_arg0 m c))),
    ((h c).1 1).trans (((Cert.KernelIdeal.Hand.dats m 0 c).arrAt_in 1 rfl _).trans ((Cert.KernelIdeal.Hand.A_eq m c 1).trans (Cert.KernelIdeal.Gen.V_main_arg1 m c))),
    ((h c).1 2).trans (((Cert.KernelIdeal.Hand.dats m 0 c).arrAt_in 2 rfl _).trans ((Cert.KernelIdeal.Hand.A_eq m c 2).trans (Cert.KernelIdeal.Gen.V_main_arg2 m c))),
    ((h c).1 3).trans (((Cert.KernelIdeal.Hand.dats m 0 c).arrAt_in 3 rfl _).trans ((Cert.KernelIdeal.Hand.A_eq m c 3).trans (Cert.KernelIdeal.Gen.V_main_arg3 m c))),
    ((h c).1 4).trans (((Cert.KernelIdeal.Hand.dats m 0 c).arrAt_in 4 rfl _).trans ((Cert.KernelIdeal.Hand.A_eq m c 4).trans (Cert.KernelIdeal.Gen.V_main_arg4 m c))),
    ((h c).1 5).trans (((Cert.KernelIdeal.Hand.dats m 0 c).arrAt_in 5 rfl _).trans ((Cert.KernelIdeal.Hand.A_eq m c 5).trans (Cert.KernelIdeal.Gen.V_main_arg5 m c))),
    ((h c).1 6).trans (((Cert.KernelIdeal.Hand.dats m 0 c).arrAt_in 6 rfl _).trans ((Cert.KernelIdeal.Hand.A_eq m c 6).trans (Cert.KernelIdeal.Gen.V_main_arg6 m c)))⟩

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KValue.spec m c, run_ki m ρ, ?_⟩
  refine (θ_run Cert.ReferenceIdeal.defs _ _).mono (fun r h c => ⟨(h c).1.trans ?_, (h c).2⟩)
    (Cert.ReferenceIdeal.Gen.run_v0 (F := Ideal) m' ρ')
  rw [Cert.ReferenceIdeal.RefValue.result_eq m' ρ' c]
  unfold Cert.ReferenceIdeal.RefValue.spec Cert.KernelIdeal.KValue.spec
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
